-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  IdealRules.truncf_extf.Statement Cert.KernelIdeal.S256x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S256x256 : Shape := ⟨2, ![256, 256]⟩
abbrev S256 : Shape := ⟨1, ![256]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_arg12 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  main_v63

def fn_part2 {F : FTy → Type} [FloatOps F] (main_arg7 : FVec F S256x256 .f32) (main_arg8 : FVec F S256 .f32) (main_arg9 : FVec F S256 .f32) (main_arg10 : FVec F S256 .f32) (main_arg11 : FVec F S256 .f32) (main_arg12 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_v48 main_v49 main_v50

def fn_part1 {F : FTy → Type} [FloatOps F] (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4x4096x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256 .f32) (main_arg12 : FVec F S256 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_v13 main_v16
-- ==== Kernel.lean ====
abbrev S4x4096x256 : Shape := ⟨3, ![4, 4096, 256]⟩
abbrev S256x256 : Shape := ⟨2, ![256, 256]⟩
abbrev S256 : Shape := ⟨1, ![256]⟩
abbrev S16384x256 : Shape := ⟨2, ![16384, 256]⟩
abbrev S1x256 : Shape := ⟨2, ![1, 256]⟩
abbrev S2048x256 : Shape := ⟨2, ![2048, 256]⟩
abbrev S1x256x256 : Shape := ⟨3, ![1, 256, 256]⟩
abbrev S1x4096x256 : Shape := ⟨3, ![1, 4096, 256]⟩
abbrev S4096x256 : Shape := ⟨2, ![4096, 256]⟩
abbrev S256x4096 : Shape := ⟨2, ![256, 4096]⟩
abbrev S256x1 : Shape := ⟨2, ![256, 1]⟩

abbrev nBuf : Space → Nat
  | .hbm => 33
  | .vmem => 30
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S16384x256, .f32⟩
  | .hbm, ⟨14, _⟩ => ⟨S256x256, .f32⟩
  | .hbm, ⟨15, _⟩ => ⟨S256x256, .f32⟩
  | .hbm, ⟨16, _⟩ => ⟨S256x256, .f32⟩
  | .hbm, ⟨17, _⟩ => ⟨S256x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S16384x256, .bf16⟩
  | .hbm, ⟨27, _⟩ => ⟨S16384x256, .bf16⟩
  | .hbm, ⟨28, _⟩ => ⟨S16384x256, .bf16⟩
  | .hbm, ⟨29, _⟩ => ⟨S4x4096x256, .bf16⟩
  | .hbm, ⟨30, _⟩ => ⟨S4x4096x256, .bf16⟩
  | .hbm, ⟨31, _⟩ => ⟨S4x4096x256, .bf16⟩
  | .hbm, ⟨32, _⟩ => ⟨S4x4096x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x4096x256, .bf16⟩
  | .local _ .vmem, ⟨17, _⟩ => ⟨S1x4096x256, .bf16⟩
  | .local _ .vmem, ⟨18, _⟩ => ⟨S1x4096x256, .bf16⟩
  | .local _ .vmem, ⟨19, _⟩ => ⟨S1x4096x256, .bf16⟩
  | .local _ .vmem, ⟨20, _⟩ => ⟨S1x256x256, .f32⟩
  | .local _ .vmem, ⟨21, _⟩ => ⟨S1x256x256, .f32⟩
  | .local _ .vmem, ⟨22, _⟩ => ⟨S256x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256x256, .f32⟩
  | .local _ .vmem, ⟨29, _⟩ => ⟨S1x256x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13_0 : Ref sig .tc := ⟨.hbm, 26, rfl⟩
abbrev main_v13_1 : Ref sig .tc := ⟨.hbm, 27, rfl⟩
abbrev main_v13_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4096x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 2 → Memref sig .tc .vmem S1x256x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

class Facts₀ : Prop where
  shapeCasts_S4x4096x256_S16384x256 : S4x4096x256.ShapeCasts S16384x256
  transposes_S256x256_S256x256_1_0 : S256x256.Transposes [1, 0] S256x256
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  shapeCasts_S16384x256_S4x4096x256 : S16384x256.ShapeCasts S4x4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S256x4096_S256 : S256x4096.Reduces [1] S256
  shapeCasts_S256_S256x1 : S256.ShapeCasts S256x1
  broadcasts_S256x1_S256x4096 : S256x1.Broadcasts S256x4096
  broadcasts_S256x1_S256x256 : S256x1.Broadcasts S256x256
  reduces_S256x256_S256 : S256x256.Reduces [1] S256
  broadcasts_S1x256_S256x256 : S1x256.Broadcasts S256x256
  shapeCasts_S256x256_S1x256x256 : S256x256.ShapeCasts S1x256x256
  dot_S2048x256_S256x256_S2048x256_1_0_0_1_n_n_wf : DotDims.WF S2048x256 S256x256 S2048x256 [1] [0] [0] [1] [] []
  dot_S256x256_S4096x256_S256x4096_1_1_0_0_n_n_wf : DotDims.WF S256x256 S4096x256 S256x4096 [1] [1] [0] [0] [] []
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S16384x256.size a
  hwx0_7 : ∀ i : grid0.Coords, EltTy.bits .bf16 = 32 ∨ (Rect.block (s := S16384x256) S2048x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x256.size a ≤ S16384x256.size a
  hwx0_8 : ∀ i : grid0.Coords, EltTy.bits .bf16 = 32 ∨ (Rect.block (s := S16384x256) S2048x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x256.size a ≤ S16384x256.size a
  hwx0_9 : ∀ i : grid0.Coords, EltTy.bits .bf16 = 32 ∨ (Rect.block (s := S16384x256) S2048x256.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S4x4096x256.size a
  hwx1_0 : ∀ i : grid1.Coords, EltTy.bits .bf16 = 32 ∨ (Rect.block (s := S4x4096x256) S1x256x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4096x256.size a ≤ S4x4096x256.size a
  hwx1_1 : ∀ i : grid1.Coords, EltTy.bits .bf16 = 32 ∨ (Rect.block (s := S4x4096x256) S1x4096x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x256.size a ≤ S4x4096x256.size a
  hwx1_2 : ∀ i : grid1.Coords, EltTy.bits .bf16 = 32 ∨ (Rect.block (s := S4x4096x256) S1x4096x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x256.size a ≤ S4x4096x256.size a
  hwx1_3 : ∀ i : grid1.Coords, EltTy.bits .f32 = 32 ∨ (Rect.block (s := S4x4096x256) S1x256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S1x256x256.size a ≤ S4x4096x256.size a
  hwx1_10 : ∀ i : grid1.Coords, EltTy.bits .f32 = 32 ∨ (Rect.block (s := S4x4096x256) S1x256x256.size (cc1_transform_10 i) (hinb1_10 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S256x256_S4096x256_S256x4096_1_1_0_0_n_n : DotDims S256x256 S4096x256 S256x4096 where
  lhsContracting := [1]
  rhsContracting := [1]
  lhsNonContracting := [0]
  rhsNonContracting := [0]
  lhsBatch := []
  rhsBatch := []
  wf := dot_S256x256_S4096x256_S256x4096_1_1_0_0_n_n_wf
def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S2048x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S2048x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x4096x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x4096x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v11) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v17) S1x256x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4x4096x256 : Shape := ⟨3, ![4, 4096, 256]⟩
abbrev S256x256 : Shape := ⟨2, ![256, 256]⟩
abbrev S256 : Shape := ⟨1, ![256]⟩
abbrev S1x1x256 : Shape := ⟨3, ![1, 1, 256]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S4x4096x256, .f32⟩
  | .hbm, ⟨14, _⟩ => ⟨S1x1x256, .f32⟩
  | .hbm, ⟨15, _⟩ => ⟨S4x4096x256, .f32⟩
  | .hbm, ⟨16, _⟩ => ⟨S4x4096x256, .f32⟩
  | .hbm, ⟨17, _⟩ => ⟨S4x4096x256, .f32⟩
  | .hbm, ⟨18, _⟩ => ⟨S1x1x256, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S1x1x256, .f32⟩
  | .hbm, ⟨23, _⟩ => ⟨S4x4096x256, .f32⟩
  | .hbm, ⟨24, _⟩ => ⟨S4x4096x256, .f32⟩
  | .hbm, ⟨25, _⟩ => ⟨S4x4096x4096, .f32⟩
  | .hbm, ⟨26, _⟩ => ⟨S_, .f32⟩
  | .hbm, ⟨27, _⟩ => ⟨S4x4096x4096, .f32⟩
  | .hbm, ⟨28, _⟩ => ⟨S4x4096x4096, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4x4096, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S4x4096x4096, .f32⟩
  | .hbm, ⟨42, _⟩ => ⟨S4x4096x4096, .f32⟩
  | .hbm, ⟨43, _⟩ => ⟨S4x4096x256, .f32⟩
  | .hbm, ⟨44, _⟩ => ⟨S4x4096x256, .f32⟩
  | .hbm, ⟨45, _⟩ => ⟨S_, .f32⟩
  | .hbm, ⟨46, _⟩ => ⟨S4x4096, .f32⟩
  | .hbm, ⟨47, _⟩ => ⟨S4x4096x1, .f32⟩
  | .hbm, ⟨48, _⟩ => ⟨S_, .f32⟩
  | .hbm, ⟨49, _⟩ => ⟨S4x4096x1, .f32⟩
  | .hbm, ⟨50, _⟩ => ⟨S4x4096x1, .f32⟩
  | .hbm, ⟨51, _⟩ => ⟨S4x4096x256, .f32⟩
  | .hbm, ⟨52, _⟩ => ⟨S4x4096x256, .f32⟩
  | .hbm, ⟨53, _⟩ => ⟨S4x4096x256, .f32⟩
  | .hbm, ⟨54, _⟩ => ⟨S_, .f32⟩
  | .hbm, ⟨55, _⟩ => ⟨S4x4096, .f32⟩
  | .hbm, ⟨56, _⟩ => ⟨S4x4096x1, .f32⟩
  | .hbm, ⟨57, _⟩ => ⟨S_, .f32⟩
  | .hbm, ⟨58, _⟩ => ⟨S4x4096x1, .f32⟩
  | .hbm, ⟨59, _⟩ => ⟨S4x4096x1, .f32⟩
  | .hbm, ⟨60, _⟩ => ⟨S4x4096x256, .f32⟩
  | .hbm, ⟨61, _⟩ => ⟨S4x4096x256, .f32⟩
  | .hbm, ⟨62, _⟩ => ⟨S_, .f32⟩
  | .hbm, ⟨63, _⟩ => ⟨S4x4096x1, .f32⟩
  | .hbm, ⟨64, _⟩ => ⟨S4x4096x1, .f32⟩
  | .hbm, ⟨65, _⟩ => ⟨S4x4096x1, .f32⟩
  | .hbm, ⟨66, _⟩ => ⟨S4x4096x256, .f32⟩
  | .hbm, ⟨67, _⟩ => ⟨S4x4096x256, .f32⟩
  | .hbm, ⟨68, _⟩ => ⟨S1x1x256, .f32⟩
  | .hbm, ⟨69, _⟩ => ⟨S4x4096x256, .f32⟩
  | .hbm, ⟨70, _⟩ => ⟨S4x4096x256, .f32⟩
  | .hbm, ⟨71, _⟩ => ⟨S1x1x256, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S1x1x256, .f32⟩
  | .hbm, ⟨76, _⟩ => ⟨S4x4096x256, .f32⟩
  | .hbm, ⟨77, _⟩ => ⟨S4x4096x256, .f32⟩
  | .hbm, ⟨78, _⟩ => ⟨S_, .f32⟩
  | .hbm, ⟨79, _⟩ => ⟨S4x4096x256, .f32⟩
  | .hbm, ⟨80, _⟩ => ⟨S4x4096x256, .f32⟩
  | .hbm, ⟨81, _⟩ => ⟨S4x4096x256, .f32⟩
  | .hbm, ⟨82, _⟩ => ⟨S1x1x256, .f32⟩
  | .hbm, ⟨83, _⟩ => ⟨S4x4096x256, .f32⟩
  | .hbm, ⟨84, _⟩ => ⟨S4x4096x256, .f32⟩
  | .hbm, ⟨85, _⟩ => ⟨S4x4096x256, .f32⟩
  | .hbm, ⟨86, _⟩ => ⟨S_, .f32⟩
  | .hbm, ⟨87, _⟩ => ⟨S4x4096, .f32⟩
  | .hbm, ⟨88, _⟩ => ⟨S4x4096x1, .f32⟩
  | .hbm, ⟨89, _⟩ => ⟨S_, .f32⟩
  | .hbm, ⟨90, _⟩ => ⟨S4x4096x1, .f32⟩
  | .hbm, ⟨91, _⟩ => ⟨S4x4096x1, .f32⟩
  | .hbm, ⟨92, _⟩ => ⟨S4x4096x256, .f32⟩
  | .hbm, ⟨93, _⟩ => ⟨S4x4096x256, .f32⟩
  | .hbm, ⟨94, _⟩ => ⟨S4x4096x256, .f32⟩
  | .hbm, ⟨95, _⟩ => ⟨S_, .f32⟩
  | .hbm, ⟨96, _⟩ => ⟨S4x4096, .f32⟩
  | .hbm, ⟨97, _⟩ => ⟨S4x4096x1, .f32⟩
  | .hbm, ⟨98, _⟩ => ⟨S_, .f32⟩
  | .hbm, ⟨99, _⟩ => ⟨S4x4096x1, .f32⟩
  | .hbm, ⟨100, _⟩ => ⟨S4x4096x1, .f32⟩
  | .hbm, ⟨101, _⟩ => ⟨S4x4096x256, .f32⟩
  | .hbm, ⟨102, _⟩ => ⟨S4x4096x256, .f32⟩
  | .hbm, ⟨103, _⟩ => ⟨S_, .f32⟩
  | .hbm, ⟨104, _⟩ => ⟨S4x4096x1, .f32⟩
  | .hbm, ⟨105, _⟩ => ⟨S4x4096x1, .f32⟩
  | .hbm, ⟨106, _⟩ => ⟨S4x4096x1, .f32⟩
  | .hbm, ⟨107, _⟩ => ⟨S4x4096x256, .f32⟩
  | .hbm, ⟨108, _⟩ => ⟨S4x4096x256, .f32⟩
  | .hbm, ⟨109, _⟩ => ⟨S1x1x256, .f32⟩
  | .hbm, ⟨110, _⟩ => ⟨S4x4096x256, .f32⟩
  | .hbm, ⟨111, _⟩ => ⟨S4x4096x256, .f32⟩
  | .hbm, ⟨112, _⟩ => ⟨S1x1x256, .f32⟩
  | .hbm, ⟨113, _⟩ => ⟨S4x4096x256, .f32⟩
  | .hbm, ⟨114, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_call0_cst : Ref sig .tc := ⟨.hbm, 78, rfl⟩
abbrev main_call0_v0 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_cst_9 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_10 : Ref sig .tc := ⟨.hbm, 95, rfl⟩
abbrev main_v69 : Ref sig .tc := ⟨.hbm, 96, rfl⟩
abbrev main_v70 : Ref sig .tc := ⟨.hbm, 97, rfl⟩
abbrev main_cst_11 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_12 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  reducesTo_S4x4096x256_S4x4096_d2 : S4x4096x256.ReducesTo [2] S4x4096
  bcast_S_S4x4096x1 : S_.BroadcastsInDim S4x4096x1 (![] : Fin 0 → Fin S4x4096x1.rank)
  bcast_S4x4096x1_S4x4096x256_0_1_2 : S4x4096x1.BroadcastsInDim S4x4096x256 (![0, 1, 2] : Fin 3 → Fin S4x4096x256.rank)
  bcast_S_S4x4096x256 : S_.BroadcastsInDim S4x4096x256 (![] : Fin 0 → Fin S4x4096x256.rank)
  dot_S4x4096x256_S256x256_S4x4096x256_2_1_01_0_n_n_wf : DotDims.WF S4x4096x256 S256x256 S4x4096x256 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]

variable [Facts₀]

def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf

class Facts : Prop extends Facts₀ where

variable [Facts]
-- ==== Proof.Spec.lean ====
/-
  The function both programs compute, row by row, on the extended reals.

  One row of the input x (a batch b, a position s) goes through three linear maps (query, key, value), a row softmax of
  the scaled query-key products against every position of the same batch, a weighted sum of the values, a residual
  LayerNorm, a linear map applied twice with a ReLU between, and a second residual LayerNorm. The two programs differ in
  ONE place: the kernel divides the weighted sum of the values by the softmax denominator once (`attnK`), the reference
  divides each weight first (`attnR`). Everything else is stated once and shared.
-/
import Idealize.ShloMosaic.PureOps.Ideal
import Idealize.ShloMosaic.PureOps.Ideal.Laws
import Idealize.ShloMosaic.Lib.ValueIdx

noncomputable section

open scoped BigOperators

namespace Cert.Attn

open Idealize.ShloMosaic Idealize.ShloMosaic.ValueIdx

/-- x : [4, 4096, 256]. -/
abbrev SX : Shape := ⟨3, ![4, 4096, 256]⟩
/-- A weight matrix, [out, in] = [256, 256]. -/
abbrev SW : Shape := ⟨2, ![256, 256]⟩
/-- A bias, gain or shift vector, [256]. -/
abbrev SV : Shape := ⟨1, ![256]⟩

/-- The scale 1/16 = 1/sqrt 256 as the kernel writes it (the f32 word of 0.0625). -/
abbrev c16 : EReal := Ideal.ofBits .f32 0x3D800000#32
/-- The row length 256 as both programs write it. -/
abbrev c256 : EReal := Ideal.ofBits .f32 0x43800000#32
/-- LayerNorm's epsilon as both programs write it (the f32 word nearest 1e-5). -/
abbrev cEps : EReal := Ideal.ofBits .f32 0x3727C5AC#32
/-- The row maximum starts from minus infinity. -/
abbrev cNegInf : EReal := Ideal.ofBits .f32 0xFF800000#32

/-- A linear layer on a row: (u · W[e, :]) + β[e], the weight stored [out, in]. -/
def lin (W : SW.Idx → EReal) (β : SV.Idx → EReal) (u : Fin 256 → EReal) (e : Fin 256) : EReal :=
  (∑ d : Fin 256, u d * W (ix2 e d)) + β (ix1 e)

/-- A row's mean: its sum over 256. -/
def mean (u : Fin 256 → EReal) : EReal := Ideal.div (∑ d : Fin 256, u d) c256

/-- LayerNorm of a row: (u - mean) · rsqrt(var + ε) · g + β, the variance the mean of the squared deviations. -/
def lnorm (g β : SV.Idx → EReal) (u : Fin 256 → EReal) (e : Fin 256) : EReal :=
  (u e - mean u) * Ideal.rsqrt (mean (fun d => (u d - mean u) * (u d - mean u)) + cEps) * g (ix1 e) + β (ix1 e)

/-- The scaled product of a query row with key row j. -/
def score (q : Fin 256 → EReal) (kk : Fin 4096 → Fin 256 → EReal) (j : Fin 4096) : EReal :=
  (∑ d : Fin 256, q d * kk j d) * c16

/-- The largest entry of a row of 4096, from minus infinity. -/
def rowmax (f : Fin 4096 → EReal) : EReal := (Finset.univ : Finset (Fin 4096)).fold max cNegInf f

/-- The unnormalised softmax weight of position j: exp (f j - max f). -/
def pexp (f : Fin 4096 → EReal) (j : Fin 4096) : EReal := Ideal.exp (f j - rowmax f)

/-- Attention as the kernel takes it: the weighted sum of the values, divided once by the sum of the weights. -/
def attnK (q : Fin 256 → EReal) (kk vv : Fin 4096 → Fin 256 → EReal) (e : Fin 256) : EReal :=
  Ideal.div (∑ j : Fin 4096, pexp (score q kk) j * vv j e) (∑ j : Fin 4096, pexp (score q kk) j)

/-- Attention as the reference takes it: each weight divided by the sum of the weights, then the weighted sum. -/
def attnR (q : Fin 256 → EReal) (kk vv : Fin 4096 → Fin 256 → EReal) (e : Fin 256) : EReal :=
  ∑ j : Fin 4096, Ideal.div (pexp (score q kk) j) (∑ j' : Fin 4096, pexp (score q kk) j') * vv j e

/-- A matrix read transposed: the kernel's program transposes each weight before the call. -/
def tr (A : SW.Idx → EReal) : SW.Idx → EReal := fun i => A (ix2 (n0 := 256) (n1 := 256) (i 1) (i 0))

theorem tr_ix2 (A : SW.Idx → EReal) (e d : Fin 256) : tr A (ix2 e d) = A (ix2 d e) := rfl

/-- A [1, 256] row read as a vector: the kernel's program reshapes each bias, gain and shift to one row. -/
def row1 (A : (⟨2, ![1, 256]⟩ : Shape).Idx → EReal) : SV.Idx → EReal := fun i => A (ix2 (n0 := 1) (n1 := 256) 0 (i 0))

theorem row1_ix1 (A : (⟨2, ![1, 256]⟩ : Shape).Idx → EReal) (e : Fin 256) : row1 A (ix1 e) = A (ix2 0 e) := rfl

section Row

variable (attn : (Fin 256 → EReal) → (Fin 4096 → Fin 256 → EReal) → (Fin 4096 → Fin 256 → EReal) → Fin 256 → EReal)
variable (X : SX.Idx → EReal) (Wq : SW.Idx → EReal) (bq : SV.Idx → EReal) (Wk : SW.Idx → EReal) (bk : SV.Idx → EReal)
  (Wv : SW.Idx → EReal) (bv : SV.Idx → EReal) (Wl : SW.Idx → EReal) (bl g1 be1 g2 be2 : SV.Idx → EReal)

/-- Row (b, s) of x. -/
def xrow (b : Fin 4) (s : Fin 4096) (d : Fin 256) : EReal := X (ix3 b s d)

/-- The first LayerNorm's output on row (b, s): x + attention, normalised. -/
def hid (b : Fin 4) (s : Fin 4096) (e : Fin 256) : EReal :=
  lnorm g1 be1 (fun d => xrow X b s d +
    attn (lin Wq bq (xrow X b s)) (fun j => lin Wk bk (xrow X b j)) (fun j => lin Wv bv (xrow X b j)) d) e

/-- The feed-forward part on a row: the same linear map twice, a ReLU between. -/
def ffn (h : Fin 256 → EReal) (e : Fin 256) : EReal :=
  lin Wl bl (fun d => max (lin Wl bl h d) (Ideal.ofBits .f32 0x00000000#32)) e

/-- The attention, feed-forward and LayerNorm part from GIVEN query, key and value arrays Q, K, Vv (the kernel's second
    call reads them from memory), at (b, s, e). -/
def rowOutQKV (Q K Vv : SX.Idx → EReal) (b : Fin 4) (s : Fin 4096) (e : Fin 256) : EReal :=
  lnorm g2 be2 (fun d => xrow X b s d + ffn Wl bl (lnorm g1 be1 (fun d' => xrow X b s d' +
    attn (xrow Q b s) (fun j => xrow K b j) (fun j => xrow Vv b j) d')) d) e

/-- The whole result at (b, s, e). -/
def rowOut (b : Fin 4) (s : Fin 4096) (e : Fin 256) : EReal :=
  lnorm g2 be2 (fun d => xrow X b s d + ffn Wl bl (hid attn X Wq bq Wk bk Wv bv g1 be1 b s) d) e

/-- The whole result is the second part at the three projections of x. -/
theorem rowOut_eq_rowOutQKV (Q K Vv : SX.Idx → EReal)
    (hQ : ∀ b s e, Q (ix3 b s e) = lin Wq bq (xrow X b s) e) (hK : ∀ b s e, K (ix3 b s e) = lin Wk bk (xrow X b s) e)
    (hV : ∀ b s e, Vv (ix3 b s e) = lin Wv bv (xrow X b s) e) (b : Fin 4) (s : Fin 4096) (e : Fin 256) :
    rowOutQKV attn X Wl bl g1 be1 g2 be2 Q K Vv b s e = rowOut attn X Wq bq Wk bk Wv bv Wl bl g1 be1 g2 be2 b s e := by
  have hq : xrow Q b s = lin Wq bq (xrow X b s) := funext fun e => hQ b s e
  have hk : (fun j => xrow K b j) = fun j => lin Wk bk (xrow X b j) := funext fun j => funext fun e => hK b j e
  have hv : (fun j => xrow Vv b j) = fun j => lin Wv bv (xrow X b j) := funext fun j => funext fun e => hV b j e
  unfold rowOutQKV rowOut hid
  rw [hq, hk, hv]

/-- The whole result as an array over [4, 4096, 256]. -/
def out : SX.Idx → EReal := fun i => rowOut attn X Wq bq Wk bk Wv bv Wl bl g1 be1 g2 be2 (i 0) (i 1) (i 2)

theorem out_ix3 (b : Fin 4) (s : Fin 4096) (e : Fin 256) :
    out attn X Wq bq Wk bk Wv bv Wl bl g1 be1 g2 be2 (ix3 b s e) = rowOut attn X Wq bq Wk bk Wv bv Wl bl g1 be1 g2 be2 b s e := rfl

end Row

end Cert.Attn

end
-- ==== Proof.KernelGlue.lean ====
/-
  The contents of the kernel program's buffers at the two calls' entries, read back to the arguments: the host lines
  before the first call reshape x to [16384, 256], transpose each weight and reshape each vector to one row; the
  lines between the calls reshape the three projections back to [4, 4096, 256].
-/
import proofs.«427772_j35862976921882_3_alg».proof.Proof.Gen.KernelIdeal.Frame
import proofs.«427772_j35862976921882_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem
open Cert.KernelIdeal Cert.KernelIdeal.Gen Cert.Attn

/-! ## Layout operations at an index -/

/-- Row b * 4096 + s of the flattened array is row (b, s) of the [4, 4096, 256] one. -/
def flatRow (b : Fin 4) (s : Fin 4096) : Fin 16384 := ⟨b.val * 4096 + s.val, by have := b.isLt; have := s.isLt; omega⟩

theorem flatten_apply (X : S4x4096x256.Idx → EReal) (h : S4x4096x256.ShapeCasts S16384x256) (b : Fin 4) (s : Fin 4096) (d : Fin 256) :
    shapeCast S16384x256 X h (ix2 (flatRow b s) d) = X (ix3 b s d) := by
  refine shapeCast_apply X h _ _ ?_
  rw [Shape.rowMajor_val_two, Shape.rowMajor_val_three]
  rfl

theorem unflatten_apply (A : S16384x256.Idx → EReal) (h : S16384x256.ShapeCasts S4x4096x256) (b : Fin 4) (s : Fin 4096) (e : Fin 256) :
    shapeCast S4x4096x256 A h (ix3 b s e) = A (ix2 (flatRow b s) e) := by
  refine shapeCast_apply A h _ _ ?_
  rw [Shape.rowMajor_val_two, Shape.rowMajor_val_three]
  rfl

theorem transpose_ix2 (W : S256x256.Idx → EReal) (h : S256x256.Transposes [1, 0] S256x256) (d e : Fin 256) :
    transpose S256x256 [1, 0] W h (ix2 d e) = W (ix2 e d) :=
  transpose_apply _ _ _ _ (ix2 e d) (fun b => match b with | ⟨0, _⟩ => rfl | ⟨1, _⟩ => rfl)

theorem row_ix2 (β : S256.Idx → EReal) (h : S256.ShapeCasts S1x256) (e : Fin 256) :
    shapeCast S1x256 β h (ix2 0 e) = β (ix1 e) := by
  refine shapeCast_apply β h _ _ ?_
  rw [Shape.rowMajor_val_two, Shape.rowMajor_val_one]
  show e.val = 0 * 256 + e.val
  omega

theorem tr_transpose (W : S256x256.Idx → EReal) (h : S256x256.Transposes [1, 0] S256x256) :
    tr (transpose S256x256 [1, 0] W h) = W := by
  funext i
  obtain ⟨e, d, rfl⟩ : ∃ (e d : Fin 256), i = ix2 e d := ⟨i 0, i 1, eq_ix2 i⟩
  rw [tr_ix2, transpose_ix2]

theorem row1_reshape (β : S256.Idx → EReal) (h : S256.ShapeCasts S1x256) : row1 (shapeCast S1x256 β h) = β := by
  funext i
  obtain ⟨e, rfl⟩ : ∃ e : Fin 256, i = ix1 e := ⟨i 0, eq_ix1 i⟩
  rw [row1_ix1, row_ix2]

/-! ## The first call's entry contents -/

variable (m : (ℓ : Loc nD τ sig) → Buf (Elt Ideal) ℓ) (ρ : Dev nD → PrngReg)

theorem V1_v0 (c : Dev nD) :
    V1 m ρ c main_v0 = shapeCast S16384x256 (m ((c : Thread nD τ).loc main_arg0)) shapeCasts_S4x4096x256_S16384x256 := by
  dsimp only [V1, W1, hostOps0]; after_results <;> rfl

theorem V1_v1 (c : Dev nD) :
    V1 m ρ c main_v1 = transpose S256x256 [1, 0] (m ((c : Thread nD τ).loc main_arg1)) transposes_S256x256_S256x256_1_0 := by
  dsimp only [V1, W1, hostOps0]; after_results <;> rfl

theorem V1_v2 (c : Dev nD) :
    V1 m ρ c main_v2 = transpose S256x256 [1, 0] (m ((c : Thread nD τ).loc main_arg3)) transposes_S256x256_S256x256_1_0 := by
  dsimp only [V1, W1, hostOps0]; after_results <;> rfl

theorem V1_v3 (c : Dev nD) :
    V1 m ρ c main_v3 = transpose S256x256 [1, 0] (m ((c : Thread nD τ).loc main_arg5)) transposes_S256x256_S256x256_1_0 := by
  dsimp only [V1, W1, hostOps0]; after_results <;> rfl

theorem V1_v4 (c : Dev nD) :
    V1 m ρ c main_v4 = transpose S256x256 [1, 0] (m ((c : Thread nD τ).loc main_arg7)) transposes_S256x256_S256x256_1_0 := by
  dsimp only [V1, W1, hostOps0]; after_results <;> rfl

theorem V1_v5 (c : Dev nD) :
    V1 m ρ c main_v5 = shapeCast S1x256 (m ((c : Thread nD τ).loc main_arg2)) shapeCasts_S256_S1x256 := by
  dsimp only [V1, W1, hostOps0]; after_results <;> rfl

theorem V1_v6 (c : Dev nD) :
    V1 m ρ c main_v6 = shapeCast S1x256 (m ((c : Thread nD τ).loc main_arg4)) shapeCasts_S256_S1x256 := by
  dsimp only [V1, W1, hostOps0]; after_results <;> rfl

theorem V1_v7 (c : Dev nD) :
    V1 m ρ c main_v7 = shapeCast S1x256 (m ((c : Thread nD τ).loc main_arg6)) shapeCasts_S256_S1x256 := by
  dsimp only [V1, W1, hostOps0]; after_results <;> rfl

theorem V1_v8 (c : Dev nD) :
    V1 m ρ c main_v8 = shapeCast S1x256 (m ((c : Thread nD τ).loc main_arg8)) shapeCasts_S256_S1x256 := by
  dsimp only [V1, W1, hostOps0]; after_results <;> rfl

theorem V1_v9 (c : Dev nD) :
    V1 m ρ c main_v9 = shapeCast S1x256 (m ((c : Thread nD τ).loc main_arg9)) shapeCasts_S256_S1x256 := by
  dsimp only [V1, W1, hostOps0]; after_results <;> rfl

theorem V1_v10 (c : Dev nD) :
    V1 m ρ c main_v10 = shapeCast S1x256 (m ((c : Thread nD τ).loc main_arg10)) shapeCasts_S256_S1x256 := by
  dsimp only [V1, W1, hostOps0]; after_results <;> rfl

theorem V1_v11 (c : Dev nD) :
    V1 m ρ c main_v11 = shapeCast S1x256 (m ((c : Thread nD τ).loc main_arg11)) shapeCasts_S256_S1x256 := by
  dsimp only [V1, W1, hostOps0]; after_results <;> rfl

theorem V1_v12 (c : Dev nD) :
    V1 m ρ c main_v12 = shapeCast S1x256 (m ((c : Thread nD τ).loc main_arg12)) shapeCasts_S256_S1x256 := by
  dsimp only [V1, W1, hostOps0]; after_results <;> rfl

theorem V1_arg0 (c : Dev nD) : V1 m ρ c main_arg0 = m ((c : Thread nD τ).loc main_arg0) := by
  dsimp only [V1, W1, hostOps0]; after_results <;> rfl

/-! ## The second call's entry contents -/

theorem V3_arg0 (c : Dev nD) : V3 m ρ c main_arg0 = V1 m ρ c main_arg0 := by
  have e1 : V3 m ρ c main_arg0 = W2 m ρ c (Proc.devRef .tc main_arg0) := by
    dsimp only [V3, W3, hostOps1]; after_results <;> rfl
  exact e1.trans (W2_of_ne m ρ c main_arg0 (by decide))

theorem V3_v4 (c : Dev nD) : V3 m ρ c main_v4 = V1 m ρ c main_v4 := by
  have e1 : V3 m ρ c main_v4 = W2 m ρ c (Proc.devRef .tc main_v4) := by
    dsimp only [V3, W3, hostOps1]; after_results <;> rfl
  exact e1.trans (W2_of_ne m ρ c main_v4 (by decide))

theorem V3_v8 (c : Dev nD) : V3 m ρ c main_v8 = V1 m ρ c main_v8 := by
  have e1 : V3 m ρ c main_v8 = W2 m ρ c (Proc.devRef .tc main_v8) := by
    dsimp only [V3, W3, hostOps1]; after_results <;> rfl
  exact e1.trans (W2_of_ne m ρ c main_v8 (by decide))

theorem V3_v9 (c : Dev nD) : V3 m ρ c main_v9 = V1 m ρ c main_v9 := by
  have e1 : V3 m ρ c main_v9 = W2 m ρ c (Proc.devRef .tc main_v9) := by
    dsimp only [V3, W3, hostOps1]; after_results <;> rfl
  exact e1.trans (W2_of_ne m ρ c main_v9 (by decide))

theorem V3_v10 (c : Dev nD) : V3 m ρ c main_v10 = V1 m ρ c main_v10 := by
  have e1 : V3 m ρ c main_v10 = W2 m ρ c (Proc.devRef .tc main_v10) := by
    dsimp only [V3, W3, hostOps1]; after_results <;> rfl
  exact e1.trans (W2_of_ne m ρ c main_v10 (by decide))

theorem V3_v11 (c : Dev nD) : V3 m ρ c main_v11 = V1 m ρ c main_v11 := by
  have e1 : V3 m ρ c main_v11 = W2 m ρ c (Proc.devRef .tc main_v11) := by
    dsimp only [V3, W3, hostOps1]; after_results <;> rfl
  exact e1.trans (W2_of_ne m ρ c main_v11 (by decide))

theorem V3_v12 (c : Dev nD) : V3 m ρ c main_v12 = V1 m ρ c main_v12 := by
  have e1 : V3 m ρ c main_v12 = W2 m ρ c (Proc.devRef .tc main_v12) := by
    dsimp only [V3, W3, hostOps1]; after_results <;> rfl
  exact e1.trans (W2_of_ne m ρ c main_v12 (by decide))

theorem V3_v14 (c : Dev nD) :
    V3 m ρ c main_v14 = shapeCast S4x4096x256 ((dat0 (V1 m ρ) c).arrAt 7 cfg0.N) shapeCasts_S16384x256_S4x4096x256 := by
  have e1 : V3 m ρ c main_v14 = shapeCast S4x4096x256 (W2 m ρ c (Proc.devRef .tc main_v13_0)) shapeCasts_S16384x256_S4x4096x256 := by
    dsimp only [V3, W3, hostOps1]; after_results <;> rfl
  rw [e1]; exact congrArg (fun A => shapeCast S4x4096x256 A shapeCasts_S16384x256_S4x4096x256) (W2_arr m ρ c 7)

theorem V3_v15 (c : Dev nD) :
    V3 m ρ c main_v15 = shapeCast S4x4096x256 ((dat0 (V1 m ρ) c).arrAt 8 cfg0.N) shapeCasts_S16384x256_S4x4096x256 := by
  have e1 : V3 m ρ c main_v15 = shapeCast S4x4096x256 (W2 m ρ c (Proc.devRef .tc main_v13_1)) shapeCasts_S16384x256_S4x4096x256 := by
    dsimp only [V3, W3, hostOps1]; after_results <;> rfl
  rw [e1]; exact congrArg (fun A => shapeCast S4x4096x256 A shapeCasts_S16384x256_S4x4096x256) (W2_arr m ρ c 8)

theorem V3_v16 (c : Dev nD) :
    V3 m ρ c main_v16 = shapeCast S4x4096x256 ((dat0 (V1 m ρ) c).arrAt 9 cfg0.N) shapeCasts_S16384x256_S4x4096x256 := by
  have e1 : V3 m ρ c main_v16 = shapeCast S4x4096x256 (W2 m ρ c (Proc.devRef .tc main_v13_2)) shapeCasts_S16384x256_S4x4096x256 := by
    dsimp only [V3, W3, hostOps1]; after_results <;> rfl
  rw [e1]; exact congrArg (fun A => shapeCast S4x4096x256 A shapeCasts_S16384x256_S4x4096x256) (W2_arr m ρ c 9)

/-- The result array is the second call's output array at the run's end. -/
theorem W4_v17 (c : Dev nD) : W4 m ρ c (Proc.devRef .tc main_v17) = (dat1 (V3 m ρ) c).arrAt 10 cfg1.N :=
  W4_arr m ρ c 10

end Cert.KernelIdeal.Glue

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.KV0.lean ====
/-
  What the first call leaves in its three output arrays, for ANY contents V of the TensorCore's buffers at its entry:
  row R of each output is row R of the [16384, 256] input through a linear layer, the weight read from the transposed
  matrix the host wrote, the bias from the one-row array.

  The call runs over 8 points. Point t takes rows 2048 t … 2048 t + 2047 of the input, each of the three [256, 256]
  matrices and of the three one-row biases whole, and writes rows 2048 t … 2048 t + 2047 of each output. For one output:
  the body's value at (r, e) of a block is the sum over d of x (r, d) · W (d, e), plus b (0, e) — on the extended reals a
  change of float format and a cast to the same shape are the identity, the product into the zero accumulator is the
  plain [2048, 256] by [256, 256] matrix product, and the one row is repeated down the rows —; each input block is read
  where the output block's rows say; and the 8 blocks cover the array, the point that covers row R being R / 2048.
-/
import proofs.«427772_j35862976921882_3_alg».proof.Proof.Gen.KernelIdeal.Frame
import proofs.«427772_j35862976921882_3_alg».proof.Proof.Spec
import proofs.«427772_j35862976921882_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV0

open Idealize.ShloMosaic Idealize.ShloMosaic.TcCoe Idealize.ShloMosaic.ValueIdx Idealize.SL.Sem
open Cert.KernelIdeal Cert.KernelIdeal.Gen Cert.Attn
open scoped BigOperators

variable (V : (c : Dev nD) → (b : Ref sig .tc) → Buf (Elt Ideal) ((c : Thread nD τ).loc b))

/-- The [16384, 256] array a linear layer of the first call writes: row R of `Xf` against the transposed weight `WT`
    ([in, out]) plus the one-row bias `b2`. -/
def linFlat (Xf : S16384x256.Idx → EReal) (WT : S256x256.Idx → EReal) (b2 : S1x256.Idx → EReal) : S16384x256.Idx → EReal :=
  fun i => lin (tr WT) (row1 b2) (fun d => Xf (ix2 (i 0) d)) (i 1)

/-! ## The body's value at an entry of a block -/

/-- The query block at (r, e): row r of the input block against column e of the weight block, plus the bias's entry e. -/
theorem query_entry (x : Vec Ideal S2048x256 .f32) (w : Vec Ideal S256x256 .f32) (b : Vec Ideal S1x256 .f32) (r : Fin 2048) (e : Fin 256) :
    k0_pay2 (F := Ideal) x w b (ix2 r e) = (∑ d : Fin 256, x (ix2 r d) * w (ix2 d e)) + b (ix2 (0 : Fin 1) e) := by
  unfold k0_pay2 k0_pay1
  show matmul dot_S2048x256_S256x256_S2048x256_1_0_0_1_n_n none
        (truncf .bf16 (shapeCast S2048x256 x shapeCasts_S2048x256_S2048x256) bitsLt_bf16_f32)
        (truncf .bf16 (shapeCast S256x256 w shapeCasts_S256x256_S256x256) bitsLt_bf16_f32)
        (constant (F := Ideal) S2048x256 .f32 0x00000000#32) (ix2 r e)
      + broadcastTo S2048x256 (shapeCast S1x256 b shapeCasts_S1x256_S1x256) broadcasts_S1x256_S2048x256 (ix2 r e) = _
  rw [shapeCast_self, shapeCast_self, shapeCast_self, broadcastTo_1b_ab_apply]
  congr 1
  exact Cert.LibPlainDot.matmul_zero_apply dot_S2048x256_S256x256_S2048x256_1_0_0_1_n_n rfl none _ _ r e

/-- The key block at (r, e): the same product and sum, of the key's weight and bias blocks. -/
theorem key_entry (x : Vec Ideal S2048x256 .f32) (w : Vec Ideal S256x256 .f32) (b : Vec Ideal S1x256 .f32) (r : Fin 2048) (e : Fin 256) :
    k0_pay3 (F := Ideal) x w b (ix2 r e) = (∑ d : Fin 256, x (ix2 r d) * w (ix2 d e)) + b (ix2 (0 : Fin 1) e) := by
  unfold k0_pay3 k0_pay1
  show matmul dot_S2048x256_S256x256_S2048x256_1_0_0_1_n_n none
        (truncf .bf16 (shapeCast S2048x256 x shapeCasts_S2048x256_S2048x256) bitsLt_bf16_f32)
        (truncf .bf16 (shapeCast S256x256 w shapeCasts_S256x256_S256x256) bitsLt_bf16_f32)
        (constant (F := Ideal) S2048x256 .f32 0x00000000#32) (ix2 r e)
      + broadcastTo S2048x256 (shapeCast S1x256 b shapeCasts_S1x256_S1x256) broadcasts_S1x256_S2048x256 (ix2 r e) = _
  rw [shapeCast_self, shapeCast_self, shapeCast_self, broadcastTo_1b_ab_apply]
  congr 1
  exact Cert.LibPlainDot.matmul_zero_apply dot_S2048x256_S256x256_S2048x256_1_0_0_1_n_n rfl none _ _ r e

/-- The value block at (r, e): the same product and sum, of the value's weight and bias blocks. -/
theorem value_entry (x : Vec Ideal S2048x256 .f32) (w : Vec Ideal S256x256 .f32) (b : Vec Ideal S1x256 .f32) (r : Fin 2048) (e : Fin 256) :
    k0_pay4 (F := Ideal) x w b (ix2 r e) = (∑ d : Fin 256, x (ix2 r d) * w (ix2 d e)) + b (ix2 (0 : Fin 1) e) := by
  unfold k0_pay4 k0_pay1
  show matmul dot_S2048x256_S256x256_S2048x256_1_0_0_1_n_n none
        (truncf .bf16 (shapeCast S2048x256 x shapeCasts_S2048x256_S2048x256) bitsLt_bf16_f32)
        (truncf .bf16 (shapeCast S256x256 w shapeCasts_S256x256_S256x256) bitsLt_bf16_f32)
        (constant (F := Ideal) S2048x256 .f32 0x00000000#32) (ix2 r e)
      + broadcastTo S2048x256 (shapeCast S1x256 b shapeCasts_S1x256_S1x256) broadcasts_S1x256_S2048x256 (ix2 r e) = _
  rw [shapeCast_self, shapeCast_self, shapeCast_self, broadcastTo_1b_ab_apply]
  congr 1
  exact Cert.LibPlainDot.matmul_zero_apply dot_S2048x256_S256x256_S2048x256_1_0_0_1_n_n rfl none _ _ r e

/-! ## Which part of its array each block is -/

/-- The offsets of a whole-buffer access are zero on both axes. -/
theorem zero_off : (![0, 0] : Fin 2 → Nat) = fun _ => 0 := funext fun a => by fin_cases a <;> rfl

/-- The input's block index at point `t` is (t, 0). -/
theorem idx_input : ∀ t : Fin cfg0.N, win0_0.index t (0 : Fin 2) = t.val ∧ win0_0.index t (1 : Fin 2) = 0 :=
  (by decide +kernel : ∀ t : Fin grid0.N, _)

/-- The three weights' block index is (0, 0) at every point. -/
theorem idx_weights : ∀ t : Fin cfg0.N,
    (win0_1.index t (0 : Fin 2) = 0 ∧ win0_1.index t (1 : Fin 2) = 0)
    ∧ (win0_3.index t (0 : Fin 2) = 0 ∧ win0_3.index t (1 : Fin 2) = 0)
    ∧ (win0_5.index t (0 : Fin 2) = 0 ∧ win0_5.index t (1 : Fin 2) = 0) :=
  (by decide +kernel : ∀ t : Fin grid0.N, _)

/-- The three biases' block index is (0, 0) at every point. -/
theorem idx_biases : ∀ t : Fin cfg0.N,
    (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0) :=
  (by decide +kernel : ∀ t : Fin grid0.N, _)

/-- The three outputs' block index at point `t` is (t, 0), as the input's. -/
theorem idx_outputs : ∀ t : Fin cfg0.N,
    (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row r of the input's block at point `t` is row 2048 t + r of the input. -/
theorem rows_of_point (c : Dev nD) (t : Fin cfg0.N) (r : Fin 2048) (d : Fin 256) (R : Fin 16384) (hR : R.val = t.val * 2048 + r.val) :
    (iblk0 (F := Ideal) V c 0 t : Vec Ideal S2048x256 .f32) (ix2 r d) = (V c main_v0 : S16384x256.Idx → EReal) (ix2 R d) := by
  obtain ⟨e0, e1⟩ := idx_input t
  unfold iblk0
  rw [View.read_apply]
  show V c main_v0 _ = V c main_v0 _
  congr 1
  funext a
  apply Fin.ext
  match a with
  | ⟨0, _⟩ => show win0_0.index t (0 : Fin 2) * 2048 + 1 * r.val = R.val; rw [e0, hR]; omega
  | ⟨1, _⟩ => show win0_0.index t (1 : Fin 2) * 256 + 1 * d.val = d.val; rw [e1]; omega

/-- The query weight's block at any point is the whole [256, 256] matrix: its block index is (0, 0). -/
theorem query_weight_whole (c : Dev nD) (t : Fin cfg0.N) (d e : Fin 256) :
    (iblk0 (F := Ideal) V c 1 t : Vec Ideal S256x256 .f32) (ix2 d e) = (V c main_v1 : S256x256.Idx → EReal) (ix2 d e) := by
  obtain ⟨e0, e1⟩ := (idx_weights t).1
  unfold iblk0
  rw [View.read_apply]
  show V c main_v1 _ = V c main_v1 _
  congr 1
  funext a
  apply Fin.ext
  match a with
  | ⟨0, _⟩ => show win0_1.index t (0 : Fin 2) * 256 + 1 * d.val = d.val; rw [e0]; omega
  | ⟨1, _⟩ => show win0_1.index t (1 : Fin 2) * 256 + 1 * e.val = e.val; rw [e1]; omega

/-- The key weight's block at any point is the whole [256, 256] matrix: its block index is (0, 0). -/
theorem key_weight_whole (c : Dev nD) (t : Fin cfg0.N) (d e : Fin 256) :
    (iblk0 (F := Ideal) V c 3 t : Vec Ideal S256x256 .f32) (ix2 d e) = (V c main_v2 : S256x256.Idx → EReal) (ix2 d e) := by
  obtain ⟨e0, e1⟩ := (idx_weights t).2.1
  unfold iblk0
  rw [View.read_apply]
  show V c main_v2 _ = V c main_v2 _
  congr 1
  funext a
  apply Fin.ext
  match a with
  | ⟨0, _⟩ => show win0_3.index t (0 : Fin 2) * 256 + 1 * d.val = d.val; rw [e0]; omega
  | ⟨1, _⟩ => show win0_3.index t (1 : Fin 2) * 256 + 1 * e.val = e.val; rw [e1]; omega

/-- The value weight's block at any point is the whole [256, 256] matrix: its block index is (0, 0). -/
theorem value_weight_whole (c : Dev nD) (t : Fin cfg0.N) (d e : Fin 256) :
    (iblk0 (F := Ideal) V c 5 t : Vec Ideal S256x256 .f32) (ix2 d e) = (V c main_v3 : S256x256.Idx → EReal) (ix2 d e) := by
  obtain ⟨e0, e1⟩ := (idx_weights t).2.2
  unfold iblk0
  rw [View.read_apply]
  show V c main_v3 _ = V c main_v3 _
  congr 1
  funext a
  apply Fin.ext
  match a with
  | ⟨0, _⟩ => show win0_5.index t (0 : Fin 2) * 256 + 1 * d.val = d.val; rw [e0]; omega
  | ⟨1, _⟩ => show win0_5.index t (1 : Fin 2) * 256 + 1 * e.val = e.val; rw [e1]; omega

/-- The query bias's block at any point is the whole one-row array. -/
theorem query_bias_whole (c : Dev nD) (t : Fin cfg0.N) (e : Fin 256) :
    (iblk0 (F := Ideal) V c 2 t : Vec Ideal S1x256 .f32) (ix2 (0 : Fin 1) e) = (V c main_v5 : S1x256.Idx → EReal) (ix2 (0 : Fin 1) e) := by
  obtain ⟨e0, e1⟩ := (idx_biases t).1
  unfold iblk0
  rw [View.read_apply]
  show V c main_v5 _ = V c main_v5 _
  congr 1
  funext a
  apply Fin.ext
  match a with
  | ⟨0, _⟩ => show win0_2.index t (0 : Fin 2) * 1 + 1 * 0 = 0; rw [e0]
  | ⟨1, _⟩ => show win0_2.index t (1 : Fin 2) * 256 + 1 * e.val = e.val; rw [e1]; omega

/-- The key bias's block at any point is the whole one-row array. -/
theorem key_bias_whole (c : Dev nD) (t : Fin cfg0.N) (e : Fin 256) :
    (iblk0 (F := Ideal) V c 4 t : Vec Ideal S1x256 .f32) (ix2 (0 : Fin 1) e) = (V c main_v6 : S1x256.Idx → EReal) (ix2 (0 : Fin 1) e) := by
  obtain ⟨e0, e1⟩ := (idx_biases t).2.1
  unfold iblk0
  rw [View.read_apply]
  show V c main_v6 _ = V c main_v6 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * e.val = e.val; rw [e1]; omega

/-- The value bias's block at any point is the whole one-row array. -/
theorem value_bias_whole (c : Dev nD) (t : Fin cfg0.N) (e : Fin 256) :
    (iblk0 (F := Ideal) V c 6 t : Vec Ideal S1x256 .f32) (ix2 (0 : Fin 1) e) = (V c main_v7 : S1x256.Idx → EReal) (ix2 (0 : Fin 1) e) := by
  obtain ⟨e0, e1⟩ := (idx_biases t).2.2
  unfold iblk0
  rw [View.read_apply]
  show V c main_v7 _ = V c main_v7 _
  congr 1
  funext a
  apply Fin.ext
  match a with
  | ⟨0, _⟩ => show win0_6.index t (0 : Fin 2) * 1 + 1 * 0 = 0; rw [e0]
  | ⟨1, _⟩ => show win0_6.index t (1 : Fin 2) * 256 + 1 * e.val = e.val; rw [e1]; omega

/-- One entry of one point's block, carried to the array: a block `p` whose entry (r, e) is the product-and-bias of
    blocks `x`, `w`, `b`, where `x` is rows 2048 n … of `Xf` and `w`, `b` are `WT`, `b2`, is at `j` the linear layer's
    array at the index `i` whose row is 2048 n + j's row and whose column is j's. -/
theorem block_entry (p : FVec Ideal S2048x256 .bf16)
    (x : Vec Ideal S2048x256 .f32) (w : Vec Ideal S256x256 .f32) (b : Vec Ideal S1x256 .f32)
    (hp : ∀ (r : Fin 2048) (e : Fin 256), p (ix2 r e) = (∑ d : Fin 256, x (ix2 r d) * w (ix2 d e)) + b (ix2 (0 : Fin 1) e))
    (Xf : S16384x256.Idx → EReal) (WT : S256x256.Idx → EReal) (b2 : S1x256.Idx → EReal) (n : Nat)
    (hx : ∀ (r : Fin 2048) (d : Fin 256) (R : Fin 16384), R.val = n * 2048 + r.val → x (ix2 r d) = Xf (ix2 R d))
    (hw : ∀ (d e : Fin 256), w (ix2 d e) = WT (ix2 d e)) (hb : ∀ e : Fin 256, b (ix2 (0 : Fin 1) e) = b2 (ix2 (0 : Fin 1) e))
    (j : S2048x256.Idx) (i : S16384x256.Idx) (hi0 : (i 0).val = n * 2048 + (j 0).val) (hi1 : (i 1).val = (j 1).val) :
    p j = linFlat Xf WT b2 i := by
  obtain ⟨r, e, rfl⟩ : ∃ (r : Fin 2048) (e : Fin 256), j = ix2 r e := ⟨j 0, j 1, eq_ix2 j⟩
  obtain ⟨R, e', rfl⟩ : ∃ (R : Fin 16384) (e' : Fin 256), i = ix2 R e' := ⟨i 0, i 1, eq_ix2 i⟩
  obtain rfl : e' = e := Fin.ext hi1
  rw [hp]
  show _ = (∑ d : Fin 256, Xf (ix2 R d) * tr WT (ix2 e' d)) + row1 b2 (ix1 e')
  rw [row1_ix1, hb]
  congr 1
  refine Finset.sum_congr rfl fun d _ => ?_
  rw [tr_ix2, hx r d R hi0, hw]

/-! ## The query output -/

/-- What point `t` writes back to the query output is rows 2048 t … 2048 t + 2047 of the linear layer's array. -/
theorem wrote_7 (c : Dev nD) (t : Fin cfg0.N) :
    (dat0 (F := Ideal) V c).flushed 7 t
      = ((cfg0.win 7).blk t).view.read (Elt Ideal) (linFlat (V c main_v0) (V c main_v1) (V c main_v5)) := by
  show (cfg0.win 7).cut (grid0.coords t) ((dat0 (F := Ideal) V c).after 7 t) = _
  rw [after0_7]
  unfold out0_7
  rw [View.canon_unit_zero zero_off]
  simp only [View.ld_unit_zero (S := S2048x256) zero_off, View.ld_unit_zero (S := S256x256) zero_off,
    View.ld_unit_zero (S := S1x256) zero_off]
  obtain ⟨e0, e1⟩ := (idx_outputs t).1
  funext j
  rw [View.read_apply]
  refine block_entry (k0_pay2 (F := Ideal) (iblk0 V c 0 t) (iblk0 V c 1 t) (iblk0 V c 2 t))
    (iblk0 V c 0 t) (iblk0 V c 1 t) (iblk0 V c 2 t) (fun r e => query_entry _ _ _ r e)
    (V c main_v0) (V c main_v1) (V c main_v5) t.val
    (fun r d R hR => rows_of_point V c t r d R hR) (fun d e => query_weight_whole V c t d e) (fun e => query_bias_whole V c t e) _ _ ?_ ?_
  · show win0_7.index t (0 : Fin 2) * 2048 + 1 * (j 0).val = t.val * 2048 + (j 0).val
    rw [e0]; omega
  · show win0_7.index t (1 : Fin 2) * 256 + 1 * (j 1).val = (j 1).val
    rw [e1]; omega

/-- An index of the query output is in point `t`'s block iff each coordinate is in the block's range on its axis. -/
theorem mem_block_7 (t : Fin cfg0.N) (i : S16384x256.Idx) :
    i ∈ ((cfg0.win 7).blk t).view.set ↔ ∀ a : Fin 2, win0_7.index t a * S2048x256.size a ≤ (i a).val
      ∧ (i a).val < win0_7.index t a * S2048x256.size a + S2048x256.size a := by
  show i ∈ ((View.whole main_v13_0).slice (win0_7.rect t)).set ↔ _
  rw [View.set_slice_whole, Rect.mem_set_unit]
  exact Iff.rfl

/-- Every index of the query output is in some point's block: row R is in the block of point R / 2048. -/
theorem covered_7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hN : grid0.N = 8 := N_0
  have ht : (i 0).val / 2048 < cfg0.N := by show _ < grid0.N; omega
  obtain ⟨e0, e1⟩ := (idx_outputs ⟨(i 0).val / 2048, ht⟩).1
  refine ⟨⟨(i 0).val / 2048, ht⟩, flush0_7 _, ?_⟩
  rw [mem_block_7]
  intro a
  match a with
  | ⟨0, _⟩ =>
    show win0_7.index ⟨(i 0).val / 2048, ht⟩ (0 : Fin 2) * 2048 ≤ (i 0).val
      ∧ (i 0).val < win0_7.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_7.index ⟨(i 0).val / 2048, ht⟩ (1 : Fin 2) * 256 ≤ (i 1).val
      ∧ (i 1).val < win0_7.index ⟨(i 0).val / 2048, ht⟩ (1 : Fin 2) * 256 + 256
    rw [e1]; omega

theorem q_arr (c : Dev nD) :
    (dat0 (F := Ideal) V c).arrAt 7 cfg0.N = linFlat (V c main_v0) (V c main_v1) (V c main_v5) :=
  (dat0 (F := Ideal) V c).arrAt_eq_of_cover 7 (linFlat (V c main_v0) (V c main_v1) (V c main_v5))
    (fun t _ => wrote_7 V c t) covered_7

/-! ## The key output -/

/-- What point `t` writes back to the key output is rows 2048 t … 2048 t + 2047 of the linear layer's array. -/
theorem wrote_8 (c : Dev nD) (t : Fin cfg0.N) :
    (dat0 (F := Ideal) V c).flushed 8 t
      = ((cfg0.win 8).blk t).view.read (Elt Ideal) (linFlat (V c main_v0) (V c main_v2) (V c main_v6)) := by
  show (cfg0.win 8).cut (grid0.coords t) ((dat0 (F := Ideal) V c).after 8 t) = _
  rw [after0_8]
  unfold out0_8
  rw [View.canon_unit_zero zero_off]
  simp only [View.ld_unit_zero (S := S2048x256) zero_off, View.ld_unit_zero (S := S256x256) zero_off,
    View.ld_unit_zero (S := S1x256) zero_off]
  obtain ⟨e0, e1⟩ := (idx_outputs t).2.1
  funext j
  rw [View.read_apply]
  refine block_entry (k0_pay3 (F := Ideal) (iblk0 V c 0 t) (iblk0 V c 3 t) (iblk0 V c 4 t))
    (iblk0 V c 0 t) (iblk0 V c 3 t) (iblk0 V c 4 t) (fun r e => key_entry _ _ _ r e)
    (V c main_v0) (V c main_v2) (V c main_v6) t.val
    (fun r d R hR => rows_of_point V c t r d R hR) (fun d e => key_weight_whole V c t d e) (fun e => key_bias_whole V c t e) _ _ ?_ ?_
  · show win0_8.index t (0 : Fin 2) * 2048 + 1 * (j 0).val = t.val * 2048 + (j 0).val
    rw [e0]; omega
  · show win0_8.index t (1 : Fin 2) * 256 + 1 * (j 1).val = (j 1).val
    rw [e1]; omega

/-- An index of the key output is in point `t`'s block iff each coordinate is in the block's range on its axis. -/
theorem mem_block_8 (t : Fin cfg0.N) (i : S16384x256.Idx) :
    i ∈ ((cfg0.win 8).blk t).view.set ↔ ∀ a : Fin 2, win0_8.index t a * S2048x256.size a ≤ (i a).val
      ∧ (i a).val < win0_8.index t a * S2048x256.size a + S2048x256.size a := by
  show i ∈ ((View.whole main_v13_1).slice (win0_8.rect t)).set ↔ _
  rw [View.set_slice_whole, Rect.mem_set_unit]
  exact Iff.rfl

/-- Every index of the key output is in some point's block: row R is in the block of point R / 2048. -/
theorem covered_8 (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  have hN : grid0.N = 8 := N_0
  have ht : (i 0).val / 2048 < cfg0.N := by show _ < grid0.N; omega
  obtain ⟨e0, e1⟩ := (idx_outputs ⟨(i 0).val / 2048, ht⟩).2.1
  refine ⟨⟨(i 0).val / 2048, ht⟩, flush0_8 _, ?_⟩
  rw [mem_block_8]
  intro a
  match a with
  | ⟨0, _⟩ =>
    show win0_8.index ⟨(i 0).val / 2048, ht⟩ (0 : Fin 2) * 2048 ≤ (i 0).val
      ∧ (i 0).val < win0_8.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_8.index ⟨(i 0).val / 2048, ht⟩ (1 : Fin 2) * 256 ≤ (i 1).val
      ∧ (i 1).val < win0_8.index ⟨(i 0).val / 2048, ht⟩ (1 : Fin 2) * 256 + 256
    rw [e1]; omega

theorem k_arr (c : Dev nD) :
    (dat0 (F := Ideal) V c).arrAt 8 cfg0.N = linFlat (V c main_v0) (V c main_v2) (V c main_v6) :=
  (dat0 (F := Ideal) V c).arrAt_eq_of_cover 8 (linFlat (V c main_v0) (V c main_v2) (V c main_v6))
    (fun t _ => wrote_8 V c t) covered_8

/-! ## The value output -/

/-- What point `t` writes back to the value output is rows 2048 t … 2048 t + 2047 of the linear layer's array. -/
theorem wrote_9 (c : Dev nD) (t : Fin cfg0.N) :
    (dat0 (F := Ideal) V c).flushed 9 t
      = ((cfg0.win 9).blk t).view.read (Elt Ideal) (linFlat (V c main_v0) (V c main_v3) (V c main_v7)) := by
  show (cfg0.win 9).cut (grid0.coords t) ((dat0 (F := Ideal) V c).after 9 t) = _
  rw [after0_9]
  unfold out0_9
  rw [View.canon_unit_zero zero_off]
  simp only [View.ld_unit_zero (S := S2048x256) zero_off, View.ld_unit_zero (S := S256x256) zero_off,
    View.ld_unit_zero (S := S1x256) zero_off]
  obtain ⟨e0, e1⟩ := (idx_outputs t).2.2
  funext j
  rw [View.read_apply]
  refine block_entry (k0_pay4 (F := Ideal) (iblk0 V c 0 t) (iblk0 V c 5 t) (iblk0 V c 6 t))
    (iblk0 V c 0 t) (iblk0 V c 5 t) (iblk0 V c 6 t) (fun r e => value_entry _ _ _ r e)
    (V c main_v0) (V c main_v3) (V c main_v7) t.val
    (fun r d R hR => rows_of_point V c t r d R hR) (fun d e => value_weight_whole V c t d e) (fun e => value_bias_whole V c t e) _ _ ?_ ?_
  · show win0_9.index t (0 : Fin 2) * 2048 + 1 * (j 0).val = t.val * 2048 + (j 0).val
    rw [e0]; omega
  · show win0_9.index t (1 : Fin 2) * 256 + 1 * (j 1).val = (j 1).val
    rw [e1]; omega

/-- An index of the value output is in point `t`'s block iff each coordinate is in the block's range on its axis. -/
theorem mem_block_9 (t : Fin cfg0.N) (i : S16384x256.Idx) :
    i ∈ ((cfg0.win 9).blk t).view.set ↔ ∀ a : Fin 2, win0_9.index t a * S2048x256.size a ≤ (i a).val
      ∧ (i a).val < win0_9.index t a * S2048x256.size a + S2048x256.size a := by
  show i ∈ ((View.whole main_v13_2).slice (win0_9.rect t)).set ↔ _
  rw [View.set_slice_whole, Rect.mem_set_unit]
  exact Iff.rfl

/-- Every index of the value output is in some point's block: row R is in the block of point R / 2048. -/
theorem covered_9 (i : S16384x256.Idx) :
    ∃ t : Fin cfg0.N, (cfg0.win 9).flush t = true ∧ i ∈ ((cfg0.win 9).blk t).view.set := by
  have hi0 : (i 0).val < 16384 := (i 0).isLt
  have hi1 : (i 1).val < 256 := (i 1).isLt
  have hN : grid0.N = 8 := N_0
  have ht : (i 0).val / 2048 < cfg0.N := by show _ < grid0.N; omega
  obtain ⟨e0, e1⟩ := (idx_outputs ⟨(i 0).val / 2048, ht⟩).2.2
  refine ⟨⟨(i 0).val / 2048, ht⟩, flush0_9 _, ?_⟩
  rw [mem_block_9]
  intro a
  match a with
  | ⟨0, _⟩ =>
    show win0_9.index ⟨(i 0).val / 2048, ht⟩ (0 : Fin 2) * 2048 ≤ (i 0).val
      ∧ (i 0).val < win0_9.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_9.index ⟨(i 0).val / 2048, ht⟩ (1 : Fin 2) * 256 ≤ (i 1).val
      ∧ (i 1).val < win0_9.index ⟨(i 0).val / 2048, ht⟩ (1 : Fin 2) * 256 + 256
    rw [e1]; omega

theorem v_arr (c : Dev nD) :
    (dat0 (F := Ideal) V c).arrAt 9 cfg0.N = linFlat (V c main_v0) (V c main_v3) (V c main_v7) :=
  (dat0 (F := Ideal) V c).arrAt_eq_of_cover 9 (linFlat (V c main_v0) (V c main_v3) (V c main_v7))
    (fun t _ => wrote_9 V c t) covered_9

end Cert.KernelIdeal.KV0

end
-- ==== Proof.KV1Lay.lean ====
/-
  Rows of a matrix: the sum and the maximum of a row, a per-row value laid back along the columns, and one row laid
  along every row. A matrix index is written (p, c); a per-row vector holds one value for each p.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV1

open Idealize.ShloMosaic Idealize.ShloMosaic.ValueIdx

variable {α : Type} {a b : ℕ}

/-- An [a] vector viewed as an [a, 1] column reads, at (i, u), the vector at i. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column laid along b columns reads, at (p, c), the column at p. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row vector made a column and laid along the columns reads, at (p, c), the vector at p. -/
theorem col_apply (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- The sum along the columns, at row r: the sum over c of the entries (r, c). -/
theorem rowsum_apply (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src 0x00000000#32 h hφ hacc (ix1 r)).trans ?_
  show ∑ k : Fin b, src (h.lift (ix1 r) k) = _
  refine Finset.sum_congr rfl fun k _ => congrArg src ?_
  funext c; apply Fin.ext
  match c with
  | ⟨0, _⟩ => rfl
  | ⟨1, _⟩ => rfl

/-- The maximum along the columns from minus infinity, at row r: the fold of max over the entries (r, c). -/
theorem rowmax_apply (src : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  show (Finset.univ : Finset (Fin b)).fold max (Ideal.ofBits .f32 0xFF800000#32) (fun k => src (h.lift (ix1 r) k)) = _
  refine congrArg (fun g => (Finset.univ : Finset (Fin b)).fold max (Ideal.ofBits .f32 0xFF800000#32) g) (funext fun k => congrArg src ?_)
  funext c; apply Fin.ext
  match c with
  | ⟨0, _⟩ => rfl
  | ⟨1, _⟩ => rfl

end Cert.KernelIdeal.KV1

end
-- ==== Proof.LibDotNT.lean ====
/-
  A·Bᵀ read at an index, at the ideal values.

  For the dimension numbers "contract the LAST axis of both rank-2 operands" — an M×K left operand against an N×K right
  operand, `DotDims.transposedRhs M K N`, the form a kernel writes when it multiplies by a weight matrix stored
  [out, in] without transposing it — the (a, b) entry of the product is the sum over the contracted coordinate c of
  A[a, c] · B[b, c]. Stated for the kernel's `tpu.matmul` into the zero accumulator (`matmul_abT_zero_apply`) and for
  the host's `dot_general` (`dotGeneral_abT_apply`), each for ANY record equal to `DotDims.transposedRhs M K N` (a printed
  program's own record is one by `rfl`), and once more with the operand entries named by the caller
  (`matmul_abT_zero_apply_of_eq`), for operands that are themselves format changes or re-layings of loaded blocks.
-/
import Idealize.ShloMosaic.PureOps.Ideal.Laws
import Idealize.ShloMosaic.Lib.ValueIdx

noncomputable section

open scoped BigOperators

namespace Idealize.ShloMosaic.DotNT

open Idealize.ShloMosaic Idealize.ShloMosaic.ValueIdx

variable {M K N : Nat}

/-- The left operand's index at output (a, b) and contraction position c is (a, c): the free axis follows the output's
    row, the contracted axis the position. -/
theorem lhsIdx_transposedRhs (a : Fin M) (b : Fin N) (c : Fin K) :
    (DotDims.transposedRhs M K N).lhsIdx (ix2 a b) ((contrEquiv1 (DotDims.transposedRhs M K N) K rfl rfl).symm c) = ix2 a c := by
  have hc := contrEquiv1_symm_val (DotDims.transposedRhs M K N) K rfl rfl c
  funext ax; apply Fin.ext
  match ax with
  | ⟨0, _⟩ => simp [DotDims.lhsIdx, DotDims.transposedRhs]; rfl
  | ⟨1, _⟩ => simp [DotDims.lhsIdx, DotDims.transposedRhs]; exact hc

/-- The right operand's index there is (b, c): its free axis follows the output's COLUMN, and it too is contracted on its
    last axis. -/
theorem rhsIdx_transposedRhs (a : Fin M) (b : Fin N) (c : Fin K) :
    (DotDims.transposedRhs M K N).rhsIdx (ix2 a b) ((contrEquiv1 (DotDims.transposedRhs M K N) K rfl rfl).symm c) = ix2 b c := by
  have hc := contrEquiv1_symm_val (DotDims.transposedRhs M K N) K rfl rfl c
  funext ax; apply Fin.ext
  match ax with
  | ⟨0, _⟩ => simp [DotDims.rhsIdx, DotDims.transposedRhs]; rfl
  | ⟨1, _⟩ => simp [DotDims.rhsIdx, DotDims.transposedRhs]; exact hc

/-- A `tpu.matmul` with these dimension numbers into the zero accumulator, read at (a, b): ∑ c, A[a, c] · B[b, c]. -/
theorem matmul_abT_zero_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    matmul d prec A B (constant ⟨2, ![M, N]⟩ .f32 0x00000000#32) (ix2 a b) = ∑ c : Fin K, A (ix2 a c) * B (ix2 b c) := by
  subst hd
  show FloatOps.matmul _ prec A B _ (ix2 a b) = _
  rw [Ideal.matmul_constant_zero_apply, ← Equiv.sum_comp (contrEquiv1 (DotDims.transposedRhs M K N) K rfl rfl).symm]
  refine Finset.sum_congr rfl fun c _ => ?_
  rw [lhsIdx_transposedRhs, rhsIdx_transposedRhs]

/-- The same with the operands' entries named: whatever A and B are known to be at (a, c) and (b, c). -/
theorem matmul_abT_zero_apply_of_eq {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N)
    (L R : Fin K → EReal) (hl : ∀ c, A (ix2 a c) = L c) (hr : ∀ c, B (ix2 b c) = R c) :
    matmul d prec A B (constant ⟨2, ![M, N]⟩ .f32 0x00000000#32) (ix2 a b) = ∑ c : Fin K, L c * R c :=
  (matmul_abT_zero_apply d hd prec A B a b).trans (Finset.sum_congr rfl fun c _ => by rw [hl c, hr c])

/-- The host's `dot_general` with these dimension numbers, read at (a, b): the same sum. -/
theorem dotGeneral_abT_apply {φ₁ φ₂ : FTy} (d : DotDims ⟨2, ![M, K]⟩ ⟨2, ![N, K]⟩ ⟨2, ![M, N]⟩)
    (hd : d = DotDims.transposedRhs M K N) (prec : Option ContractPrecision)
    (A : FVec Ideal ⟨2, ![M, K]⟩ φ₁) (B : FVec Ideal ⟨2, ![N, K]⟩ φ₂) (a : Fin M) (b : Fin N) :
    Host.dotGeneral d prec A B (ix2 a b) = ∑ c : Fin K, A (ix2 a c) * B (ix2 b c) := by
  subst hd
  show FloatOps.dotGeneral _ prec _ A B (ix2 a b) = _
  rw [Ideal.dotGeneral_apply, ← Equiv.sum_comp (contrEquiv1 (DotDims.transposedRhs M K N) K rfl rfl).symm]
  refine Finset.sum_congr rfl fun c _ => ?_
  rw [lhsIdx_transposedRhs, rhsIdx_transposedRhs]

end Idealize.ShloMosaic.DotNT

end
-- ==== Proof.KV1Pay.lean ====
/-
  The second call's body at an index: the stored block's entry (0, r, e) as the row function of Spec.lean of the loaded
  blocks.

  The body is read in pieces, each a vector-valued term with its value at an index: the scaled scores q·kᵀ/16 of a query
  row against every key row; their row maximum; the exponentials of the differences; the row sum of those; the weighted
  sum of the value rows, divided once by that row sum; the residual x + attention; a row centred by its mean; the mean
  of squares of a centred row; the scale by the reciprocal square root, gain and shift; a linear layer against the
  transposed weight; the feed-forward pair with the maximum against zero between. The printed payloads are these pieces
  composed, by unfolding alone.
-/
import proofs.«427772_j35862976921882_3_alg».proof.Proof.Gen.KernelIdeal.Skeleton
import proofs.«427772_j35862976921882_3_alg».proof.Proof.Spec
import proofs.«427772_j35862976921882_3_alg».proof.Proof.KV1Lay
import proofs.«427772_j35862976921882_3_alg».proof.Proof.LibDotNT
import proofs.«427772_j35862976921882_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KV1Pay

open Idealize.ShloMosaic Idealize.ShloMosaic.TcCoe Idealize.ShloMosaic.ValueIdx Idealize.SL.Sem
open Cert.KernelIdeal Cert.KernelIdeal.Gen Cert.Attn Cert.KernelIdeal.KV1

/-- Row r of the block the second call's body stores, at column e, from the loaded blocks: the query block v0, the key
    and value slabs v1, v2, the x block v3, the transposed feed-forward weight v4, and the one-row bias, gains and shifts. -/
def blockRow (v0 : S1x256x256.Idx → EReal) (v1 v2 : S1x4096x256.Idx → EReal) (v3 : S1x256x256.Idx → EReal)
    (v4 : S256x256.Idx → EReal) (v5 v6 v7 v8 v9 : S1x256.Idx → EReal) (r e : Fin 256) : EReal :=
  lnorm (row1 v8) (row1 v9) (fun d => v3 (ix3 0 r d) + ffn (tr v4) (row1 v5)
    (lnorm (row1 v6) (row1 v7) (fun d' => v3 (ix3 0 r d') +
      attnK (fun d => v0 (ix3 0 r d)) (fun j d => v1 (ix3 0 j d)) (fun j d => v2 (ix3 0 j d)) d')) d) e

/-! ## The attention part -/

section Attention

variable (v0 : FVec Ideal S1x256x256 .bf16) (v1 v2 : FVec Ideal S1x4096x256 .bf16) (v3 : FVec Ideal S1x256x256 .f32)

/-- Query row r, and the key and value rows, as the loaded blocks hold them. -/
def qrow (r : Fin 256) : Fin 256 → EReal := fun d => v0 (ix3 0 r d)
def krows : Fin 4096 → Fin 256 → EReal := fun j d => v1 (ix3 0 j d)
def vrows : Fin 4096 → Fin 256 → EReal := fun j d => v2 (ix3 0 j d)

/-- The scaled scores: every query row against every key row, both contracted on their last axis, times 1/16. -/
def scv : FVec Ideal S256x4096 .f32 :=
  mulf (matmul dot_S256x256_S4096x256_S256x4096_1_1_0_0_n_n none (shapeCast S256x256 v0 shapeCasts_S1x256x256_S256x256)
    (shapeCast S4096x256 v1 shapeCasts_S1x4096x256_S4096x256) (constant S256x4096 .f32 0x00000000#32))
    (broadcast S256x4096 (Scalar.ofBits .f32 0x3D800000#32))

theorem scv_apply (r : Fin 256) (j : Fin 4096) : scv v0 v1 (ix2 r j) = score (qrow v0 r) (krows v1) j := by
  unfold scv score
  exact congrArg (· * Ideal.ofBits .f32 0x3D800000#32)
    (DotNT.matmul_abT_zero_apply_of_eq (M := 256) (K := 256) (N := 4096) dot_S256x256_S4096x256_S256x4096_1_1_0_0_n_n rfl none
      _ _ r j (qrow v0 r) (krows v1 j) (fun c => shapeCast_1ab_ab_apply v0 _ r c) (fun c => shapeCast_1ab_ab_apply v1 _ j c))

/-- The row maxima of the scores, from minus infinity. -/
def mxv : FVec Ideal S256 .f32 :=
  multiReduction .maximumf [1] S256 (scv v0 v1) 0xFF800000#32 reduces_S256x4096_S256 (.inl rfl) rfl

theorem mxv_apply (r : Fin 256) : mxv v0 v1 (ix1 r) = rowmax (score (qrow v0 r) (krows v1)) := by
  unfold mxv rowmax
  refine (rowmax_apply (scv v0 v1) reduces_S256x4096_S256 (.inl rfl) rfl r).trans ?_
  exact congrArg (fun g => (Finset.univ : Finset (Fin 4096)).fold max cNegInf g) (funext fun k => scv_apply v0 v1 r k)

/-- The unnormalised softmax weights: exp (score - row maximum). -/
def pev : FVec Ideal S256x4096 .f32 :=
  exp (subf (scv v0 v1) (broadcastTo S256x4096 (shapeCast S256x1 (mxv v0 v1) shapeCasts_S256_S256x1) broadcasts_S256x1_S256x4096))

theorem pev_apply (r : Fin 256) (j : Fin 4096) : pev v0 v1 (ix2 r j) = pexp (score (qrow v0 r) (krows v1)) j := by
  unfold pev pexp
  show Ideal.exp (scv v0 v1 (ix2 r j)
    - broadcastTo S256x4096 (shapeCast S256x1 (mxv v0 v1) shapeCasts_S256_S256x1) broadcasts_S256x1_S256x4096 (ix2 r j)) = _
  rw [scv_apply, col_apply (mxv v0 v1) shapeCasts_S256_S256x1 broadcasts_S256x1_S256x4096 r j, mxv_apply]

/-- The row sums of the weights. -/
def psv : FVec Ideal S256 .f32 :=
  multiReduction .add [1] S256 (pev v0 v1) 0x00000000#32 reduces_S256x4096_S256 (.inl rfl) rfl

theorem psv_apply (r : Fin 256) : psv v0 v1 (ix1 r) = ∑ j : Fin 4096, pexp (score (qrow v0 r) (krows v1)) j := by
  unfold psv
  refine (rowsum_apply (pev v0 v1) reduces_S256x4096_S256 (.inl rfl) rfl r).trans ?_
  exact Finset.sum_congr rfl fun j _ => pev_apply v0 v1 r j

/-- The weights against the value rows. -/
def pvv : FVec Ideal S256x256 .f32 :=
  matmul dot_S256x4096_S4096x256_S256x256_1_0_0_1_n_n none (truncf .bf16 (pev v0 v1) bitsLt_bf16_f32)
    (shapeCast S4096x256 v2 shapeCasts_S1x4096x256_S4096x256) (constant S256x256 .f32 0x00000000#32)

theorem pvv_apply (r e : Fin 256) :
    pvv v0 v1 v2 (ix2 r e) = ∑ j : Fin 4096, pexp (score (qrow v0 r) (krows v1)) j * vrows v2 j e := by
  unfold pvv
  refine (LibPlainDot.matmul_zero_apply (m := 256) (k := 4096) (n := 256) dot_S256x4096_S4096x256_S256x256_1_0_0_1_n_n rfl none _ _ r e).trans ?_
  refine Finset.sum_congr rfl fun j _ => ?_
  show pev v0 v1 (ix2 r j) * shapeCast S4096x256 v2 shapeCasts_S1x4096x256_S4096x256 (ix2 j e) = _
  rw [pev_apply, shapeCast_1ab_ab_apply]
  rfl

/-- Attention: the weighted sum of the values divided once by the row sum of the weights. -/
def attv : FVec Ideal S256x256 .f32 :=
  divf (pvv v0 v1 v2) (broadcastTo S256x256 (shapeCast S256x1 (psv v0 v1) shapeCasts_S256_S256x1) broadcasts_S256x1_S256x256)

theorem attv_apply (r e : Fin 256) : attv v0 v1 v2 (ix2 r e) = attnK (qrow v0 r) (krows v1) (vrows v2) e := by
  unfold attv attnK
  show Ideal.div (pvv v0 v1 v2 (ix2 r e))
    (broadcastTo S256x256 (shapeCast S256x1 (psv v0 v1) shapeCasts_S256_S256x1) broadcasts_S256x1_S256x256 (ix2 r e)) = _
  rw [pvv_apply, col_apply (psv v0 v1) shapeCasts_S256_S256x1 broadcasts_S256x1_S256x256 r e, psv_apply]

/-- The x block with its unit axis dropped. -/
theorem pay2_apply (r e : Fin 256) : k1_pay2 v3 (ix2 r e) = v3 (ix3 0 r e) := by
  unfold k1_pay2
  exact shapeCast_1ab_ab_apply v3 _ r e

/-- The residual before the first normalisation: x + attention. -/
def uv : FVec Ideal S256x256 .f32 := addf (k1_pay2 v3) (attv v0 v1 v2)

def urow (r : Fin 256) : Fin 256 → EReal :=
  fun d => v3 (ix3 0 r d) + attnK (qrow v0 r) (krows v1) (vrows v2) d

theorem uv_apply (r e : Fin 256) : uv v0 v1 v2 v3 (ix2 r e) = urow v0 v1 v2 v3 r e := by
  unfold uv urow
  show k1_pay2 v3 (ix2 r e) + attv v0 v1 v2 (ix2 r e) = _
  rw [attv_apply, pay2_apply]

end Attention

/-! ## A row's mean, centring, scaling; the linear layer -/

section Rows

/-- The mean of every row, as a column. -/
def rmean (w : FVec Ideal S256x256 .f32) : FVec Ideal S256x1 .f32 :=
  divf (shapeCast S256x1 (multiReduction .add [1] S256 w 0x00000000#32 reduces_S256x256_S256 (.inl rfl) rfl) shapeCasts_S256_S256x1)
    (broadcast S256x1 (Scalar.ofBits .f32 0x43800000#32))

theorem rmean_apply (w : FVec Ideal S256x256 .f32) (f : Fin 256 → EReal) (r : Fin 256) (hw : ∀ d, w (ix2 r d) = f d) (z : Fin 1) :
    rmean w (ix2 r z) = mean f := by
  unfold rmean mean
  show Ideal.div (shapeCast S256x1 (multiReduction (F := Ideal) .add [1] S256 w 0x00000000#32 reduces_S256x256_S256 (.inl rfl) rfl)
    shapeCasts_S256_S256x1 (ix2 r z)) c256 = _
  refine congrArg (Ideal.div · c256) ((shapeCast_a_a1_apply _ shapeCasts_S256_S256x1 r z).trans
    ((rowsum_apply w reduces_S256x256_S256 (.inl rfl) rfl r).trans ?_))
  exact Finset.sum_congr rfl fun d _ => hw d

/-- Every row less its mean. -/
def ctr (w : FVec Ideal S256x256 .f32) : FVec Ideal S256x256 .f32 :=
  subf w (broadcastTo S256x256 (rmean w) broadcasts_S256x1_S256x256)

theorem ctr_apply (w : FVec Ideal S256x256 .f32) (f : Fin 256 → EReal) (r : Fin 256) (hw : ∀ d, w (ix2 r d) = f d) (e : Fin 256) :
    ctr w (ix2 r e) = f e - mean f := by
  unfold ctr
  show w (ix2 r e) - broadcastTo S256x256 (rmean w) broadcasts_S256x1_S256x256 (ix2 r e) = _
  rw [broadcastTo_a1_ab_apply, rmean_apply w f r hw, hw]

/-- A centred row scaled by the reciprocal square root of (s + t), by the gain, and shifted. -/
def nrm (w : FVec Ideal S256x256 .f32) (s t : FVec Ideal S256x1 .f32) (g β : Vec Ideal S1x256 .f32) : FVec Ideal S256x256 .f32 :=
  addf (mulf (mulf w (broadcastTo S256x256 (rsqrt (addf s t)) broadcasts_S256x1_S256x256))
      (broadcastTo S256x256 (shapeCast S1x256 g shapeCasts_S1x256_S1x256) broadcasts_S1x256_S256x256))
    (broadcastTo S256x256 (shapeCast S1x256 β shapeCasts_S1x256_S1x256) broadcasts_S1x256_S256x256)

theorem nrm_apply (w : FVec Ideal S256x256 .f32) (s t : FVec Ideal S256x1 .f32) (g β : Vec Ideal S1x256 .f32) (r e : Fin 256) :
    nrm w s t g β (ix2 r e)
      = w (ix2 r e) * Ideal.rsqrt (s (ix2 r 0) + t (ix2 r 0)) * g (ix2 0 e) + β (ix2 0 e) := by
  unfold nrm
  show w (ix2 r e) * broadcastTo S256x256 (rsqrt (addf s t)) broadcasts_S256x1_S256x256 (ix2 r e)
      * broadcastTo S256x256 (shapeCast S1x256 g shapeCasts_S1x256_S1x256) broadcasts_S1x256_S256x256 (ix2 r e)
      + broadcastTo S256x256 (shapeCast S1x256 β shapeCasts_S1x256_S1x256) broadcasts_S1x256_S256x256 (ix2 r e) = _
  rw [broadcastTo_a1_ab_apply, broadcastTo_1b_ab_apply, broadcastTo_1b_ab_apply, shapeCast_self, shapeCast_self]
  rfl

/-- The linear layer on every row against the transposed weight W ([in, out]), plus the one-row bias. -/
def linv (h : FVec Ideal S256x256 .f32) (W : Vec Ideal S256x256 .f32) (bb : Vec Ideal S1x256 .f32) : FVec Ideal S256x256 .f32 :=
  addf (matmul dot_S256x256_S256x256_S256x256_1_0_0_1_n_n none (truncf .bf16 h bitsLt_bf16_f32)
      (truncf .bf16 (shapeCast S256x256 W shapeCasts_S256x256_S256x256) bitsLt_bf16_f32) (constant S256x256 .f32 0x00000000#32))
    (broadcastTo S256x256 (shapeCast S1x256 bb shapeCasts_S1x256_S1x256) broadcasts_S1x256_S256x256)

theorem linv_apply (h : FVec Ideal S256x256 .f32) (W : Vec Ideal S256x256 .f32) (bb : Vec Ideal S1x256 .f32)
    (f : Fin 256 → EReal) (r : Fin 256) (hh : ∀ d, h (ix2 r d) = f d) (e : Fin 256) :
    linv h W bb (ix2 r e) = lin (tr W) (row1 bb) f e := by
  unfold linv lin
  show matmul dot_S256x256_S256x256_S256x256_1_0_0_1_n_n none (truncf .bf16 h bitsLt_bf16_f32)
      (truncf .bf16 (shapeCast S256x256 W shapeCasts_S256x256_S256x256) bitsLt_bf16_f32) (constant S256x256 .f32 0x00000000#32) (ix2 r e)
    + broadcastTo S256x256 (shapeCast S1x256 bb shapeCasts_S1x256_S1x256) broadcasts_S1x256_S256x256 (ix2 r e) = _
  rw [broadcastTo_1b_ab_apply, shapeCast_self bb]
  refine congrArg₂ (· + ·) ?_ rfl
  refine (LibPlainDot.matmul_zero_apply (m := 256) (k := 256) (n := 256) dot_S256x256_S256x256_S256x256_1_0_0_1_n_n rfl none _ _ r e).trans ?_
  refine Finset.sum_congr rfl fun d _ => ?_
  show h (ix2 r d) * shapeCast S256x256 W shapeCasts_S256x256_S256x256 (ix2 d e) = f d * tr W (ix2 e d)
  rw [hh, shapeCast_self]
  rfl

/-- The feed-forward pair: the linear layer, the maximum against zero, the same linear layer. -/
def ffv (h : FVec Ideal S256x256 .f32) (W : Vec Ideal S256x256 .f32) (bb : Vec Ideal S1x256 .f32) : FVec Ideal S256x256 .f32 :=
  linv (maximumf (linv h W bb) (broadcast S256x256 (Scalar.ofBits .f32 0x00000000#32))) W bb

theorem ffv_apply (h : FVec Ideal S256x256 .f32) (W : Vec Ideal S256x256 .f32) (bb : Vec Ideal S1x256 .f32)
    (f : Fin 256 → EReal) (r : Fin 256) (hh : ∀ d, h (ix2 r d) = f d) (e : Fin 256) :
    ffv h W bb (ix2 r e) = ffn (tr W) (row1 bb) f e := by
  unfold ffv ffn
  refine linv_apply _ W bb _ r (fun d => ?_) e
  show max (linv h W bb (ix2 r d)) (Ideal.ofBits .f32 0x00000000#32) = _
  rw [linv_apply h W bb f r hh d]

end Rows

/-! ## The printed payloads are these pieces -/

section Payloads

variable (v0 : Vec Ideal S1x256x256 .bf16) (v1 v2 : Vec Ideal S1x4096x256 .bf16) (v3 : Vec Ideal S1x256x256 .f32)
  (v4 : Vec Ideal S256x256 .f32) (v5 v6 v7 v8 v9 : Vec Ideal S1x256 .f32)

theorem pay3_eq : k1_pay3 v0 v1 v2 v3 = ctr (uv v0 v1 v2 v3) := rfl

theorem pay4_eq : k1_pay4 v0 v1 v2 v3 = rmean (mulf (k1_pay3 v0 v1 v2 v3) (k1_pay3 v0 v1 v2 v3)) := rfl

theorem pay6_eq (a22 a29 : FVec Ideal S256x256 .f32) (a34 a35 : FVec Ideal S256x1 .f32) :
    k1_pay6 a22 a29 a34 a35 v6 v7 v4 v5 v5 = ctr (addf a22 (ffv (nrm a29 a34 a35 v6 v7) v4 v5)) := rfl

theorem pay7_eq (a22 a29 : FVec Ideal S256x256 .f32) (a34 a35 : FVec Ideal S256x1 .f32) :
    k1_pay7 a22 a29 a34 a35 v6 v7 v4 v5 v5
      = rmean (mulf (k1_pay6 a22 a29 a34 a35 v6 v7 v4 v5 v5) (k1_pay6 a22 a29 a34 a35 v6 v7 v4 v5 v5)) := rfl

theorem pay1_eq (a71 : FVec Ideal S256x256 .f32) (a76 a77 : FVec Ideal S256x1 .f32) :
    k1_pay1 a71 a76 a77 v8 v9 = shapeCast S1x256x256 (nrm a71 a76 a77 v8 v9) shapeCasts_S256x256_S1x256x256 := rfl

/-- The first centred row. -/
theorem pay3_apply (r e : Fin 256) :
    k1_pay3 v0 v1 v2 v3 (ix2 r e) = urow v0 v1 v2 v3 r e - mean (urow v0 v1 v2 v3 r) := by
  rw [pay3_eq]
  exact ctr_apply _ (urow v0 v1 v2 v3 r) r (fun d => uv_apply v0 v1 v2 v3 r d) e

/-- Its mean of squares. -/
theorem pay4_apply (r : Fin 256) (z : Fin 1) :
    k1_pay4 v0 v1 v2 v3 (ix2 r z)
      = mean (fun d => (urow v0 v1 v2 v3 r d - mean (urow v0 v1 v2 v3 r)) * (urow v0 v1 v2 v3 r d - mean (urow v0 v1 v2 v3 r))) := by
  rw [pay4_eq]
  refine rmean_apply _ _ r (fun d => ?_) z
  show k1_pay3 v0 v1 v2 v3 (ix2 r d) * k1_pay3 v0 v1 v2 v3 (ix2 r d) = _
  rw [pay3_apply]

/-- The first normalisation's output row. -/
def hrow (r : Fin 256) : Fin 256 → EReal := lnorm (row1 v6) (row1 v7) (urow v0 v1 v2 v3 r)

theorem h_apply (r d : Fin 256) :
    nrm (k1_pay3 v0 v1 v2 v3) (k1_pay4 v0 v1 v2 v3) (k1_pay5 (F := Ideal)) v6 v7 (ix2 r d) = hrow v0 v1 v2 v3 v6 v7 r d := by
  rw [nrm_apply, pay3_apply, pay4_apply]
  rfl

/-- The residual before the second normalisation: x + feed-forward of the first normalisation's output. -/
def wrow (r : Fin 256) : Fin 256 → EReal :=
  fun d => v3 (ix3 0 r d) + ffn (tr v4) (row1 v5) (hrow v0 v1 v2 v3 v6 v7 r) d

theorem pay6_apply (r e : Fin 256) :
    k1_pay6 (k1_pay2 v3) (k1_pay3 v0 v1 v2 v3) (k1_pay4 v0 v1 v2 v3) (k1_pay5 (F := Ideal)) v6 v7 v4 v5 v5 (ix2 r e)
      = wrow v0 v1 v2 v3 v4 v5 v6 v7 r e - mean (wrow v0 v1 v2 v3 v4 v5 v6 v7 r) := by
  rw [pay6_eq]
  refine ctr_apply _ (wrow v0 v1 v2 v3 v4 v5 v6 v7 r) r (fun d => ?_) e
  show k1_pay2 v3 (ix2 r d) + ffv (nrm (k1_pay3 v0 v1 v2 v3) (k1_pay4 v0 v1 v2 v3) (k1_pay5 (F := Ideal)) v6 v7) v4 v5 (ix2 r d) = _
  rw [pay2_apply, ffv_apply _ v4 v5 (hrow v0 v1 v2 v3 v6 v7 r) r (fun d' => h_apply v0 v1 v2 v3 v6 v7 r d') d]
  rfl

theorem pay7_apply (r : Fin 256) (z : Fin 1) :
    k1_pay7 (k1_pay2 v3) (k1_pay3 v0 v1 v2 v3) (k1_pay4 v0 v1 v2 v3) (k1_pay5 (F := Ideal)) v6 v7 v4 v5 v5 (ix2 r z)
      = mean (fun d => (wrow v0 v1 v2 v3 v4 v5 v6 v7 r d - mean (wrow v0 v1 v2 v3 v4 v5 v6 v7 r))
          * (wrow v0 v1 v2 v3 v4 v5 v6 v7 r d - mean (wrow v0 v1 v2 v3 v4 v5 v6 v7 r))) := by
  rw [pay7_eq]
  refine rmean_apply _ _ r (fun d => ?_) z
  show k1_pay6 (k1_pay2 v3) (k1_pay3 v0 v1 v2 v3) (k1_pay4 v0 v1 v2 v3) (k1_pay5 (F := Ideal)) v6 v7 v4 v5 v5 (ix2 r d)
    * k1_pay6 (k1_pay2 v3) (k1_pay3 v0 v1 v2 v3) (k1_pay4 v0 v1 v2 v3) (k1_pay5 (F := Ideal)) v6 v7 v4 v5 v5 (ix2 r d) = _
  rw [pay6_apply]

end Payloads

/-- The stored block at (0, r, e): the second normalisation of x + feed-forward, which is the row function. -/
theorem pay10_apply (v0 : Vec Ideal S1x256x256 .bf16) (v1 v2 : Vec Ideal S1x4096x256 .bf16) (v3 : Vec Ideal S1x256x256 .f32)
    (v4 : Vec Ideal S256x256 .f32) (v5 v6 v7 v8 v9 : Vec Ideal S1x256 .f32) (r e : Fin 256) :
    k1_pay1 (F := Ideal)
        (k1_pay6 (k1_pay2 v3) (k1_pay3 v0 v1 v2 v3) (k1_pay4 v0 v1 v2 v3) (k1_pay5 (F := Ideal)) v6 v7 v4 v5 v5)
        (k1_pay7 (k1_pay2 v3) (k1_pay3 v0 v1 v2 v3) (k1_pay4 v0 v1 v2 v3) (k1_pay5 (F := Ideal)) v6 v7 v4 v5 v5)
        (k1_pay8 (F := Ideal)) v8 v9 (ix3 0 r e)
      = blockRow v0 v1 v2 v3 v4 v5 v6 v7 v8 v9 r e := by
  rw [pay1_eq, shapeCast_ab_1ab_apply, nrm_apply, pay6_apply, pay7_apply]
  rfl

end Cert.KernelIdeal.KV1Pay

end
-- ==== Proof.KV1.lean ====
/-
  What the second call leaves in its output array, for ANY contents V of the TensorCore's buffers at its entry: at
  (b, s, e) the attention of query row (b, s) against the keys and values of batch b, added to x and normalised, through
  the feed-forward layer twice, added to x and normalised again, the softmax divided once after the weighted sum.

  The grid is 4 x 16: point (b, qi) stages the query block, the x block and the output block of rows 256 qi .. 256 qi + 255
  of batch b, the whole key and value slabs of batch b, and the whole weight, bias, gain and shift arrays. The body's
  result at row r of the block is the row function of row (b, 256 qi + r); the output blocks tile the array.
-/
import proofs.«427772_j35862976921882_3_alg».proof.Proof.Gen.KernelIdeal.Frame
import proofs.«427772_j35862976921882_3_alg».proof.Proof.Spec
import proofs.«427772_j35862976921882_3_alg».proof.Proof.KV1Pay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KV1

open Idealize.ShloMosaic Idealize.ShloMosaic.TcCoe Idealize.ShloMosaic.ValueIdx Idealize.SL.Sem
open Cert.KernelIdeal Cert.KernelIdeal.Gen Cert.Attn

variable (V : (c : Dev nD) → (b : Ref sig .tc) → Buf (Elt Ideal) ((c : Thread nD τ).loc b))

/-- The [4, 4096, 256] array the second call writes, from the query, key and value arrays `Q`, `K`, `Vv`, the input `X`,
    the transposed feed-forward weight `WlT` ([in, out]) and the one-row bias, gains and shifts. -/
def attnArr (Q K Vv X : S4x4096x256.Idx → EReal) (WlT : S256x256.Idx → EReal) (bl2 g1r be1r g2r be2r : S1x256.Idx → EReal) :
    S4x4096x256.Idx → EReal :=
  fun i => rowOutQKV attnK X (tr WlT) (row1 bl2) (row1 g1r) (row1 be1r) (row1 g2r) (row1 be2r) Q K Vv (i 0) (i 1) (i 2)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 64 grid points: the query, x and output blocks move together over
    (batch, row block); the key and value slabs follow the batch only; every other window stays at block 0. -/
theorem idx_facts : ∀ t : Fin cfg1.N,
    win1_10.index t (0 : Fin 3) ≤ 3 ∧ win1_10.index t (1 : Fin 3) ≤ 15 ∧ win1_10.index t (2 : Fin 3) = 0
    ∧ win1_0.index t (0 : Fin 3) = win1_10.index t (0 : Fin 3) ∧ win1_0.index t (1 : Fin 3) = win1_10.index t (1 : Fin 3)
    ∧ win1_0.index t (2 : Fin 3) = 0
    ∧ win1_3.index t (0 : Fin 3) = win1_10.index t (0 : Fin 3) ∧ win1_3.index t (1 : Fin 3) = win1_10.index t (1 : Fin 3)
    ∧ win1_3.index t (2 : Fin 3) = 0
    ∧ win1_1.index t (0 : Fin 3) = win1_10.index t (0 : Fin 3) ∧ win1_1.index t (1 : Fin 3) = 0 ∧ win1_1.index t (2 : Fin 3) = 0
    ∧ win1_2.index t (0 : Fin 3) = win1_10.index t (0 : Fin 3) ∧ win1_2.index t (1 : Fin 3) = 0 ∧ win1_2.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = 0 ∧ win1_9.index t (1 : Fin 2) = 0 :=
  (by decide +kernel : ∀ t : Fin grid1.N, _)

/-- Every (batch, row block) is some point's. -/
theorem idx_onto : ∀ (q0 : Fin 4) (q1 : Fin 16), ∃ t : Fin cfg1.N, win1_10.index t = ![q0.val, q1.val, 0] :=
  (by decide +kernel : ∀ (q0 : Fin 4) (q1 : Fin 16), ∃ t : Fin grid1.N, win1_10.index t = ![q0.val, q1.val, 0])

/-! ## The windows' blocks, read off their arrays -/

/-- Row r of the query block at point t is row (b, 256 qi + r) of the query array. -/
theorem blk0_apply (c : Dev nD) (t : Fin cfg1.N) (b : Fin 4) (s : Fin 4096) (r d : Fin 256)
    (hb : b.val = win1_10.index t (0 : Fin 3)) (hs : s.val = win1_10.index t (1 : Fin 3) * 256 + r.val) :
    (iblk1 V c 0 t : S1x256x256.Idx → EReal) (ix3 0 r d) = (V c main_v14 : S4x4096x256.Idx → EReal) (ix3 b s d) := by
  obtain ⟨-, -, -, e0, e1, e2, -⟩ := idx_facts t
  unfold iblk1
  rw [View.read_apply]
  show V c main_v14 _ = V c main_v14 _
  congr 1
  funext a
  apply Fin.ext
  match a with
  | ⟨0, _⟩ => show win1_0.index t (0 : Fin 3) * 1 + 1 * 0 = b.val; omega
  | ⟨1, _⟩ => show win1_0.index t (1 : Fin 3) * 256 + 1 * r.val = s.val; omega
  | ⟨2, _⟩ => show win1_0.index t (2 : Fin 3) * 256 + 1 * d.val = d.val; omega

/-- Row r of the x block at point t is row (b, 256 qi + r) of x. -/
theorem blk3_apply (c : Dev nD) (t : Fin cfg1.N) (b : Fin 4) (s : Fin 4096) (r d : Fin 256)
    (hb : b.val = win1_10.index t (0 : Fin 3)) (hs : s.val = win1_10.index t (1 : Fin 3) * 256 + r.val) :
    (iblk1 V c 3 t : S1x256x256.Idx → EReal) (ix3 0 r d) = (V c main_arg0 : S4x4096x256.Idx → EReal) (ix3 b s d) := by
  obtain ⟨-, -, -, -, -, -, e0, e1, e2, -⟩ := idx_facts t
  unfold iblk1
  rw [View.read_apply]
  show V c main_arg0 _ = V c main_arg0 _
  congr 1
  funext a
  apply Fin.ext
  match a with
  | ⟨0, _⟩ => show win1_3.index t (0 : Fin 3) * 1 + 1 * 0 = b.val; omega
  | ⟨1, _⟩ => show win1_3.index t (1 : Fin 3) * 256 + 1 * r.val = s.val; omega
  | ⟨2, _⟩ => show win1_3.index t (2 : Fin 3) * 256 + 1 * d.val = d.val; omega

/-- Row j of the key slab at point t is row (b, j) of the key array. -/
theorem blk1_apply (c : Dev nD) (t : Fin cfg1.N) (b : Fin 4) (j : Fin 4096) (d : Fin 256)
    (hb : b.val = win1_10.index t (0 : Fin 3)) :
    (iblk1 V c 1 t : S1x4096x256.Idx → EReal) (ix3 0 j d) = (V c main_v15 : S4x4096x256.Idx → EReal) (ix3 b j d) := by
  obtain ⟨-, -, -, -, -, -, -, -, -, e0, e1, e2, -⟩ := idx_facts t
  unfold iblk1
  rw [View.read_apply]
  show V c main_v15 _ = V c main_v15 _
  congr 1
  funext a
  apply Fin.ext
  match a with
  | ⟨0, _⟩ => show win1_1.index t (0 : Fin 3) * 1 + 1 * 0 = b.val; omega
  | ⟨1, _⟩ => show win1_1.index t (1 : Fin 3) * 4096 + 1 * j.val = j.val; omega
  | ⟨2, _⟩ => show win1_1.index t (2 : Fin 3) * 256 + 1 * d.val = d.val; omega

/-- Row j of the value slab at point t is row (b, j) of the value array. -/
theorem blk2_apply (c : Dev nD) (t : Fin cfg1.N) (b : Fin 4) (j : Fin 4096) (d : Fin 256)
    (hb : b.val = win1_10.index t (0 : Fin 3)) :
    (iblk1 V c 2 t : S1x4096x256.Idx → EReal) (ix3 0 j d) = (V c main_v16 : S4x4096x256.Idx → EReal) (ix3 b j d) := by
  obtain ⟨-, -, -, -, -, -, -, -, -, -, -, -, e0, e1, e2, -⟩ := idx_facts t
  unfold iblk1
  rw [View.read_apply]
  show V c main_v16 _ = V c main_v16 _
  congr 1
  funext a
  apply Fin.ext
  match a with
  | ⟨0, _⟩ => show win1_2.index t (0 : Fin 3) * 1 + 1 * 0 = b.val; omega
  | ⟨1, _⟩ => show win1_2.index t (1 : Fin 3) * 4096 + 1 * j.val = j.val; omega
  | ⟨2, _⟩ => show win1_2.index t (2 : Fin 3) * 256 + 1 * d.val = d.val; omega

/-- The feed-forward weight's block is the whole array. -/
theorem blk4_eq (c : Dev nD) (t : Fin cfg1.N) :
    (iblk1 V c 4 t : S256x256.Idx → EReal) = (V c main_v4 : S256x256.Idx → EReal) := by
  obtain ⟨-, -, -, -, -, -, -, -, -, -, -, -, -, -, -, e0, e1, -⟩ := idx_facts t
  funext y
  unfold iblk1
  rw [View.read_apply]
  show V c main_v4 _ = V c main_v4 _
  congr 1
  funext a
  apply Fin.ext
  match a with
  | ⟨0, _⟩ => show win1_4.index t (0 : Fin 2) * 256 + 1 * (y 0).val = (y 0).val; omega
  | ⟨1, _⟩ => show win1_4.index t (1 : Fin 2) * 256 + 1 * (y 1).val = (y 1).val; omega

/-- The one-row bias, gains and shifts: each block is the whole array. -/
theorem blk5_eq (c : Dev nD) (t : Fin cfg1.N) :
    (iblk1 V c 5 t : S1x256.Idx → EReal) = (V c main_v8 : S1x256.Idx → EReal) := by
  obtain ⟨-, -, -, -, -, -, -, -, -, -, -, -, -, -, -, -, -, e0, e1, -⟩ := idx_facts t
  funext y
  unfold iblk1
  rw [View.read_apply]
  show V c main_v8 _ = V c main_v8 _
  congr 1
  funext a
  apply Fin.ext
  match a with
  | ⟨0, _⟩ => show win1_5.index t (0 : Fin 2) * 1 + 1 * (y 0).val = (y 0).val; omega
  | ⟨1, _⟩ => show win1_5.index t (1 : Fin 2) * 256 + 1 * (y 1).val = (y 1).val; omega

theorem blk6_eq (c : Dev nD) (t : Fin cfg1.N) :
    (iblk1 V c 6 t : S1x256.Idx → EReal) = (V c main_v9 : S1x256.Idx → EReal) := by
  obtain ⟨-, -, -, -, -, -, -, -, -, -, -, -, -, -, -, -, -, -, -, e0, e1, -⟩ := idx_facts t
  funext y
  unfold iblk1
  rw [View.read_apply]
  show V c main_v9 _ = V c main_v9 _
  congr 1
  funext a
  apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

theorem blk7_eq (c : Dev nD) (t : Fin cfg1.N) :
    (iblk1 V c 7 t : S1x256.Idx → EReal) = (V c main_v10 : S1x256.Idx → EReal) := by
  obtain ⟨-, -, -, -, -, -, -, -, -, -, -, -, -, -, -, -, -, -, -, -, -, e0, e1, -⟩ := idx_facts t
  funext y
  unfold iblk1
  rw [View.read_apply]
  show V c main_v10 _ = V c main_v10 _
  congr 1
  funext a
  apply Fin.ext
  match a with
  | ⟨0, _⟩ => show win1_7.index t (0 : Fin 2) * 1 + 1 * (y 0).val = (y 0).val; omega
  | ⟨1, _⟩ => show win1_7.index t (1 : Fin 2) * 256 + 1 * (y 1).val = (y 1).val; omega

theorem blk8_eq (c : Dev nD) (t : Fin cfg1.N) :
    (iblk1 V c 8 t : S1x256.Idx → EReal) = (V c main_v11 : S1x256.Idx → EReal) := by
  obtain ⟨-, -, -, -, -, -, -, -, -, -, -, -, -, -, -, -, -, -, -, -, -, -, -, e0, e1, -⟩ := idx_facts t
  funext y
  unfold iblk1
  rw [View.read_apply]
  show V c main_v11 _ = V c main_v11 _
  congr 1
  funext a
  apply Fin.ext
  match a with
  | ⟨0, _⟩ => show win1_8.index t (0 : Fin 2) * 1 + 1 * (y 0).val = (y 0).val; omega
  | ⟨1, _⟩ => show win1_8.index t (1 : Fin 2) * 256 + 1 * (y 1).val = (y 1).val; omega

theorem blk9_eq (c : Dev nD) (t : Fin cfg1.N) :
    (iblk1 V c 9 t : S1x256.Idx → EReal) = (V c main_v12 : S1x256.Idx → EReal) := by
  obtain ⟨-, -, -, -, -, -, -, -, -, -, -, -, -, -, -, -, -, -, -, -, -, -, -, -, -, e0, e1⟩ := idx_facts t
  funext y
  unfold iblk1
  rw [View.read_apply]
  show V c main_v12 _ = V c main_v12 _
  congr 1
  funext a
  apply Fin.ext
  match a with
  | ⟨0, _⟩ => show win1_9.index t (0 : Fin 2) * 1 + 1 * (y 0).val = (y 0).val; omega
  | ⟨1, _⟩ => show win1_9.index t (1 : Fin 2) * 256 + 1 * (y 1).val = (y 1).val; omega

/-! ## What a point writes back -/

/-- The body's stored block at (0, r, e), over any loaded blocks: the row function of the blocks. -/
theorem out_row (x0 : Vec Ideal S1x256x256 .bf16) (x1 x2 : Vec Ideal S1x4096x256 .bf16) (x3 : Vec Ideal S1x256x256 .f32)
    (x4 : Vec Ideal S256x256 .f32) (x5 x6 x7 x8 x9 : Vec Ideal S1x256 .f32) (r e : Fin 256) :
    out1_10 (F := Ideal) x0 x1 x2 x3 x4 x5 x6 x7 x8 x9 (ix3 0 r e) = KV1Pay.blockRow x0 x1 x2 x3 x4 x5 x6 x7 x8 x9 r e := by
  unfold out1_10
  rw [View.canon_unit_zero hz3]
  simp only [View.ld_unit_zero (S := S1x256x256) hz3, View.ld_unit_zero (S := S1x4096x256) hz3,
    View.ld_unit_zero (S := S1x256) hz2, View.ld_unit_zero (S := S256x256) hz2]
  exact KV1Pay.pay10_apply x0 x1 x2 x3 x4 x5 x6 x7 x8 x9 r e

/-- The row function of blocks that are rows of the arrays is the row function of the arrays at that row. -/
theorem blockRow_eq (v0 : S1x256x256.Idx → EReal) (v1 v2 : S1x4096x256.Idx → EReal) (v3 : S1x256x256.Idx → EReal)
    (v4 : S256x256.Idx → EReal) (v5 v6 v7 v8 v9 : S1x256.Idx → EReal)
    (Q K Vv X : S4x4096x256.Idx → EReal) (WlT : S256x256.Idx → EReal) (bl2 g1r be1r g2r be2r : S1x256.Idx → EReal)
    (b : Fin 4) (s : Fin 4096) (r e : Fin 256)
    (h0 : ∀ d, v0 (ix3 0 r d) = Q (ix3 b s d)) (h1 : ∀ j d, v1 (ix3 0 j d) = K (ix3 b j d))
    (h2 : ∀ j d, v2 (ix3 0 j d) = Vv (ix3 b j d)) (h3 : ∀ d, v3 (ix3 0 r d) = X (ix3 b s d))
    (h4 : v4 = WlT) (h5 : v5 = bl2) (h6 : v6 = g1r) (h7 : v7 = be1r) (h8 : v8 = g2r) (h9 : v9 = be2r) :
    KV1Pay.blockRow v0 v1 v2 v3 v4 v5 v6 v7 v8 v9 r e
      = rowOutQKV attnK X (tr WlT) (row1 bl2) (row1 g1r) (row1 be1r) (row1 g2r) (row1 be2r) Q K Vv b s e := by
  subst h4 h5 h6 h7 h8 h9
  unfold KV1Pay.blockRow rowOutQKV xrow
  simp only [h0, h1, h2, h3]

/-- WHAT POINT t WRITES BACK is block t of the array of row functions. -/
theorem flushed_eq (c : Dev nD) (t : Fin cfg1.N) :
    (dat1 (F := Ideal) V c).flushed 10 t = ((cfg1.win 10).blk t).view.read (Elt Ideal)
      (attnArr (V c main_v14) (V c main_v15) (V c main_v16) (V c main_arg0) (V c main_v4) (V c main_v8) (V c main_v9)
          (V c main_v10) (V c main_v11) (V c main_v12)) := by
  show (cfg1.win 10).cut (grid1.coords t) ((dat1 V c).after 10 t) = _
  rw [after1_10]
  obtain ⟨f0, f1, f2, -⟩ := idx_facts t
  funext j
  have hj0 : (j 0).val = 0 := by have : (j 0).val < 1 := (j 0).isLt; omega
  have hj1 : (j 1).val < 256 := (j 1).isLt
  have hj2 : (j 2).val < 256 := (j 2).isLt
  obtain ⟨r, hr⟩ : ∃ r : Fin 256, r.val = (j 1).val := ⟨⟨(j 1).val, hj1⟩, rfl⟩
  obtain ⟨e, he⟩ : ∃ e : Fin 256, e.val = (j 2).val := ⟨⟨(j 2).val, hj2⟩, rfl⟩
  obtain ⟨b, hb⟩ : ∃ b : Fin 4, b.val = win1_10.index t (0 : Fin 3) := ⟨⟨win1_10.index t (0 : Fin 3), by omega⟩, rfl⟩
  obtain ⟨s, hs⟩ : ∃ s : Fin 4096, s.val = win1_10.index t (1 : Fin 3) * 256 + r.val :=
    ⟨⟨win1_10.index t (1 : Fin 3) * 256 + r.val, by have := r.isLt; omega⟩, rfl⟩
  have hx : (cfg1.win 10).xinj (grid1.coords t) j = (ix3 0 r e : S1x256x256.Idx) := funext fun a => Fin.ext (by
    match a with
    | ⟨0, _⟩ => exact hj0
    | ⟨1, _⟩ => exact hr.symm
    | ⟨2, _⟩ => exact he.symm)
  have hemb : ((cfg1.win 10).blk t).view.emb j = (ix3 b s e : S4x4096x256.Idx) := funext fun a => Fin.ext (by
    match a with
    | ⟨0, _⟩ => show win1_10.index t (0 : Fin 3) * 1 + 1 * (j 0).val = b.val; omega
    | ⟨1, _⟩ => show win1_10.index t (1 : Fin 3) * 256 + 1 * (j 1).val = s.val; omega
    | ⟨2, _⟩ => show win1_10.index t (2 : Fin 3) * 256 + 1 * (j 2).val = e.val; omega)
  show out1_10 (F := Ideal) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) ((cfg1.win 10).xinj (grid1.coords t) j) = _
  rw [hx, View.read_apply, hemb]
  refine (out_row (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r e).trans ?_
  show _ = rowOutQKV attnK (V c main_arg0) (tr (V c main_v4)) (row1 (V c main_v8)) (row1 (V c main_v9)) (row1 (V c main_v10))
    (row1 (V c main_v11)) (row1 (V c main_v12)) (V c main_v14) (V c main_v15) (V c main_v16) b s e
  exact blockRow_eq (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (V c main_v14) (V c main_v15) (V c main_v16) (V c main_arg0) (V c main_v4) (V c main_v8)
    (V c main_v9) (V c main_v10) (V c main_v11) (V c main_v12) b s r e
    (fun d => blk0_apply V c t b s r d hb hs) (fun j d => blk1_apply V c t b j d hb) (fun j d => blk2_apply V c t b j d hb)
    (fun d => blk3_apply V c t b s r d hb hs) (blk4_eq V c t) (blk5_eq V c t) (blk6_eq V c t) (blk7_eq V c t) (blk8_eq V c t)
    (blk9_eq V c t)

/-! ## The output blocks tile the array -/

/-- An index of the array is in point t's block iff each coordinate is in the block's range on its axis. -/
theorem mem_blk (t : Fin cfg1.N) (i : S4x4096x256.Idx) :
    i ∈ ((cfg1.win 10).blk t).view.set ↔ ∀ a : Fin 3, win1_10.index t a * S1x256x256.size a ≤ (i a).val
      ∧ (i a).val < win1_10.index t a * S1x256x256.size a + S1x256x256.size a := by
  show i ∈ ((View.whole main_v17).slice (win1_10.rect t)).set ↔ _
  rw [View.set_slice_whole, Rect.mem_set_unit]
  exact Iff.rfl

/-- Entry (b, s, e) is in the block of the point (b, s / 256). -/
theorem cover (i : S4x4096x256.Idx) :
    ∃ t : Fin cfg1.N, (cfg1.win 10).flush t = true ∧ i ∈ ((cfg1.win 10).blk t).view.set := by
  have hi0 : (i 0).val < 4 := (i 0).isLt
  have hi1 : (i 1).val < 4096 := (i 1).isLt
  have hi2 : (i 2).val < 256 := (i 2).isLt
  obtain ⟨t, ht⟩ := idx_onto ⟨(i 0).val, hi0⟩ ⟨(i 1).val / 256, by omega⟩
  have q0 : win1_10.index t (0 : Fin 3) = (i 0).val := congrFun ht 0
  have q1 : win1_10.index t (1 : Fin 3) = (i 1).val / 256 := congrFun ht 1
  have q2 : win1_10.index t (2 : Fin 3) = 0 := congrFun ht 2
  refine ⟨t, flush1_10 t, ?_⟩
  rw [mem_blk]
  intro a
  match a with
  | ⟨0, _⟩ => show win1_10.index t (0 : Fin 3) * 1 ≤ (i 0).val ∧ (i 0).val < win1_10.index t (0 : Fin 3) * 1 + 1; omega
  | ⟨1, _⟩ => show win1_10.index t (1 : Fin 3) * 256 ≤ (i 1).val ∧ (i 1).val < win1_10.index t (1 : Fin 3) * 256 + 256; omega
  | ⟨2, _⟩ => show win1_10.index t (2 : Fin 3) * 256 ≤ (i 2).val ∧ (i 2).val < win1_10.index t (2 : Fin 3) * 256 + 256; omega

theorem out_arr (c : Dev nD) :
    (dat1 (F := Ideal) V c).arrAt 10 cfg1.N
      = attnArr (V c main_v14) (V c main_v15) (V c main_v16) (V c main_arg0) (V c main_v4) (V c main_v8) (V c main_v9)
          (V c main_v10) (V c main_v11) (V c main_v12) :=
  (dat1 (F := Ideal) V c).arrAt_eq_of_cover 10 _ (fun t _ => flushed_eq V c t) cover

end Cert.KernelIdeal.KV1

end
-- ==== Proof.KernelVal.lean ====
/-
  The kernel program's result as one function of its arguments: the second call's output array, read through the two
  host stretches and the first call's three output arrays, is the row function of Spec.lean with the softmax divided
  once after the weighted sum (`attnK`), at the launch contents of the thirteen arguments.
-/
import proofs.«427772_j35862976921882_3_alg».proof.Proof.KernelGlue
import proofs.«427772_j35862976921882_3_alg».proof.Proof.KV0
import proofs.«427772_j35862976921882_3_alg».proof.Proof.KV1

set_option maxRecDepth 16384

noncomputable section

namespace Cert.KernelIdeal.KernelVal

open Idealize.ShloMosaic Idealize.ShloMosaic.TcCoe Idealize.ShloMosaic.ValueIdx Idealize.SL.Sem
open Cert.KernelIdeal Cert.KernelIdeal.Gen Cert.Attn Cert.KernelIdeal.Glue

variable (m : (ℓ : Loc nD τ sig) → Buf (Elt Ideal) ℓ) (ρ : Dev nD → PrngReg)

/-- A projection array of the first call, reshaped to [4, 4096, 256], holds at (b, s, e) the linear layer of row (b, s)
    of x: the flattening of x and the reshaping back cancel, the transposed weight read transposed is the weight, the
    one-row bias its vector. -/
theorem proj_apply (c : Dev nD) (X : S4x4096x256.Idx → EReal) (W : S256x256.Idx → EReal) (β : S256.Idx → EReal)
    (Xf : S16384x256.Idx → EReal) (WT : S256x256.Idx → EReal) (b2 : S1x256.Idx → EReal)
    (hX : Xf = shapeCast S16384x256 X shapeCasts_S4x4096x256_S16384x256)
    (hW : WT = transpose S256x256 [1, 0] W transposes_S256x256_S256x256_1_0)
    (hβ : b2 = shapeCast S1x256 β shapeCasts_S256_S1x256) (b : Fin 4) (s : Fin 4096) (e : Fin 256) :
    shapeCast S4x4096x256 (KV0.linFlat Xf WT b2) shapeCasts_S16384x256_S4x4096x256 (ix3 b s e) = lin W β (xrow X b s) e := by
  subst hX hW hβ
  rw [unflatten_apply]
  show lin (tr (transpose S256x256 [1, 0] W transposes_S256x256_S256x256_1_0)) (row1 (shapeCast S1x256 β shapeCasts_S256_S1x256))
    (fun d => shapeCast S16384x256 X shapeCasts_S4x4096x256_S16384x256 (ix2 (flatRow b s) d)) e = _
  rw [tr_transpose, row1_reshape]
  exact congrArg (fun u => lin W β u e) (funext fun d => flatten_apply X _ b s d)

/-- The result array at the run's end. -/
theorem kernel_val (c : Dev nD) :
    W4 m ρ c (Proc.devRef .tc main_v17)
      = out attnK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  rw [W4_v17, KV1.out_arr (V3 m ρ) c]
  funext i
  obtain ⟨b, s, e, rfl⟩ : ∃ (b : Fin 4) (s : Fin 4096) (e : Fin 256), i = ix3 b s e := ⟨i 0, i 1, i 2, eq_ix3 i⟩
  rw [out_ix3]
  show rowOutQKV attnK (V3 m ρ c main_arg0) (tr (V3 m ρ c main_v4)) (row1 (V3 m ρ c main_v8)) (row1 (V3 m ρ c main_v9))
    (row1 (V3 m ρ c main_v10)) (row1 (V3 m ρ c main_v11)) (row1 (V3 m ρ c main_v12))
    (V3 m ρ c main_v14) (V3 m ρ c main_v15) (V3 m ρ c main_v16) b s e = _
  rw [V3_arg0, V1_arg0, V3_v4, V1_v4, tr_transpose, V3_v8, V1_v8, row1_reshape, V3_v9, V1_v9, row1_reshape,
    V3_v10, V1_v10, row1_reshape, V3_v11, V1_v11, row1_reshape, V3_v12, V1_v12, row1_reshape]
  refine rowOut_eq_rowOutQKV attnK _ _ _ _ _ _ _ _ _ _ _ _ _ _ _ _ ?_ ?_ ?_ b s e
  · intro b s e
    rw [V3_v14, KV0.q_arr (V1 m ρ) c]
    exact proj_apply c _ _ _ _ _ _ (V1_v0 m ρ c) (V1_v1 m ρ c) (V1_v5 m ρ c) b s e
  · intro b s e
    rw [V3_v15, KV0.k_arr (V1 m ρ) c]
    exact proj_apply c _ _ _ _ _ _ (V1_v0 m ρ c) (V1_v2 m ρ c) (V1_v6 m ρ c) b s e
  · intro b s e
    rw [V3_v16, KV0.v_arr (V1 m ρ) c]
    exact proj_apply c _ _ _ _ _ _ (V1_v0 m ρ c) (V1_v3 m ρ c) (V1_v7 m ρ c) b s e

end Cert.KernelIdeal.KernelVal

end
-- ==== Proof.RefVal.lean ====
/-
  The reference's result, stage by stage, is the row function of Spec.lean with the softmax weights divided before the
  weighted sum (`attnR`).

  Each named intermediate of Spec.lean gets one lemma: the three projections, the scaled scores, the row maximum
  (a fold of max from minus infinity; a second max against minus infinity changes nothing), the exponentials, their
  sum (from the zero word), the divided weights, the weighted sum of the values, the first LayerNorm of the residual,
  the feed-forward map, the second LayerNorm. A stage already characterised enters the next lemma only through its
  own lemma, at the coordinates (b, s, ·).
-/
import proofs.«427772_j35862976921882_3_alg».proof.Proof.RefRead
import proofs.«427772_j35862976921882_3_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.ReferenceIdeal.RefVal

open Idealize.ShloMosaic Idealize.ShloMosaic.TcCoe Idealize.ShloMosaic.ValueIdx Idealize.SL.Sem
open Cert.ReferenceIdeal Cert.ReferenceIdeal.ReadP Cert.Attn

/-- Two indices of a rank-1, rank-2 or rank-3 literal shape are equal when their coordinates are. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

/-! ## The constants the reference spells and Spec.lean does not -/

/-- The f32 word of 16.0 is the real 16. -/
theorem ofBits_sixteen : Ideal.ofBits .f32 0x41800000#32 = ((16 : ℝ) : EReal) := by
  simp [Ideal.ofBits, Ideal.ieee, -EReal.coe_mul]; norm_num

/-- The f32 word of 0.0625 is the real 1/16. -/
theorem ofBits_sixteenth : Ideal.ofBits .f32 0x3D800000#32 = ((1 / 16 : ℝ) : EReal) := by
  simp [Ideal.ofBits, Ideal.ieee, -EReal.coe_mul]; norm_num

/-- Dividing by 16 is multiplying by 1/16, at the infinities too. -/
theorem div_sixteen (x : EReal) : Ideal.div x (Ideal.ofBits .f32 0x41800000#32) = x * c16 := by
  rw [ofBits_sixteen, Ideal.div_coe (by norm_num : (16 : ℝ) ≠ 0)]
  show x * _ = x * Ideal.ofBits .f32 0x3D800000#32
  rw [ofBits_sixteenth]

/-- The f32 word of minus infinity is the bottom of the extended reals. -/
theorem negInf_eq_bot : cNegInf = (⊥ : EReal) := by
  simp [Ideal.ofBits, Ideal.ieee]

/-- A maximum against minus infinity changes nothing. -/
theorem max_negInf (x : EReal) : max cNegInf x = x := by
  rw [negInf_eq_bot]; exact max_eq_right bot_le

/-- A maximum-reduce of a [4, 4096, 4096] array over its last axis, read at (b, s): the fold of max from the initial
    value over the row's 4096 entries. -/
theorem reduce_max_row (y : (⟨3, ![4, 4096, 4096]⟩ : Shape).Idx → EReal) (init : (⟨0, ![]⟩ : Shape).Idx → EReal)
    (h' : Shape.ReducesTo ⟨3, ![4, 4096, 4096]⟩ [2] ⟨2, ![4, 4096]⟩) (hu : 0 < (⟨0, ![]⟩ : Shape).numel)
    (b : Fin 4) (s : Fin 4096) :
    Host.reduce (FloatOps.maximumf (F := Ideal) (φ := .f32)) y init h' hu (ix2 b s)
      = (Finset.univ : Finset (Fin 4096)).fold max (init (Shape.Idx.first hu)) (fun j => y (ix3 b s j)) := by
  rw [Host.reduce_eq_fold_single (FloatOps.maximumf (F := Ideal) (φ := .f32)) y init h' (by decide) hu]
  show (Finset.univ : Finset (Fin 4096)).fold max (init (Shape.Idx.first hu)) _ = _
  refine congrArg (fun f => (Finset.univ : Finset (Fin 4096)).fold max (init (Shape.Idx.first hu)) f) ?_
  funext j
  exact congrArg y (funext fun a => Fin.ext (by match a with | ⟨0, _⟩ => rfl | ⟨1, _⟩ => rfl | ⟨2, _⟩ => rfl))

variable (x0 : S4x4096x256.Idx → EReal) (x1 : S256x256.Idx → EReal) (x2 : S256.Idx → EReal) (x3 : S256x256.Idx → EReal)
  (x4 : S256.Idx → EReal) (x5 : S256x256.Idx → EReal) (x6 : S256.Idx → EReal) (x7 : S256x256.Idx → EReal)
  (x8 x9 x10 x11 x12 : S256.Idx → EReal)

/-! ## The three projections: x · Wᵀ + β at (b, s, e) -/

theorem query_eq (b : Fin 4) (s : Fin 4096) (e : Fin 256) :
    val_main_v3 (F := Ideal) x0 x1 x2 (ix3 b s e) = lin x1 x2 (xrow x0 b s) e := by
  have hl : ∀ k : Fin 256, lidx_main_v0 (ix3 b s e) k = ix3 b s k := fun k => by idx3
  have hr : ∀ k : Fin 256, ridx_main_v0 (ix3 b s e) k = ix2 e k := fun k => by idx2
  have hb : idx_main_v1 (idx_main_v2 (ix3 b s e)) = ix1 e := by idx1
  rw [val_main_v3_apply, val_main_v0_apply, val_main_v2_apply, val_main_v1_apply]
  simp only [hl, hr, hb, Ideal.addf_def]
  rfl

theorem key_eq (b : Fin 4) (s : Fin 4096) (e : Fin 256) :
    val_main_v7 (F := Ideal) x0 x3 x4 (ix3 b s e) = lin x3 x4 (xrow x0 b s) e := by
  have hl : ∀ k : Fin 256, lidx_main_v4 (ix3 b s e) k = ix3 b s k := fun k => by idx3
  have hr : ∀ k : Fin 256, ridx_main_v4 (ix3 b s e) k = ix2 e k := fun k => by idx2
  have hb : idx_main_v5 (idx_main_v6 (ix3 b s e)) = ix1 e := by idx1
  rw [val_main_v7_apply, val_main_v4_apply, val_main_v6_apply, val_main_v5_apply]
  simp only [hl, hr, hb, Ideal.addf_def]
  rfl

theorem value_eq (b : Fin 4) (s : Fin 4096) (e : Fin 256) :
    val_main_v11 (F := Ideal) x0 x5 x6 (ix3 b s e) = lin x5 x6 (xrow x0 b s) e := by
  have hl : ∀ k : Fin 256, lidx_main_v8 (ix3 b s e) k = ix3 b s k := fun k => by idx3
  have hr : ∀ k : Fin 256, ridx_main_v8 (ix3 b s e) k = ix2 e k := fun k => by idx2
  have hb : idx_main_v9 (idx_main_v10 (ix3 b s e)) = ix1 e := by idx1
  rw [val_main_v11_apply, val_main_v8_apply, val_main_v10_apply, val_main_v9_apply]
  simp only [hl, hr, hb, Ideal.addf_def]
  rfl

/-! ## The softmax of the scaled scores -/

/-- The query row (b, s) against the key row (b, j), divided by 16. -/
theorem score_eq (b : Fin 4) (s j : Fin 4096) :
    val_main_v14 (F := Ideal) x0 x1 x2 x3 x4 (ix3 b s j)
      = score (lin x1 x2 (xrow x0 b s)) (fun j' => lin x3 x4 (xrow x0 b j')) j := by
  have hl : ∀ k : Fin 256, lidx_main_v12 (ix3 b s j) k = ix3 b s k := fun k => by idx3
  have hr : ∀ k : Fin 256, ridx_main_v12 (ix3 b s j) k = ix3 b j k := fun k => by idx3
  rw [val_main_v14_apply, val_main_v12_apply, val_main_v13_apply, val_main_cst_apply]
  simp only [hl, hr, query_eq, key_eq, Ideal.hostDivf_def, Ideal.ofBits_def]
  exact div_sixteen _

/-- The row maximum: the fold of max from minus infinity over the 4096 scores of row (b, s). -/
theorem rowmax_eq (b : Fin 4) (s : Fin 4096) :
    val_main_v17 (F := Ideal) x0 x1 x2 x3 x4 (ix2 b s)
      = rowmax (score (lin x1 x2 (xrow x0 b s)) (fun j' => lin x3 x4 (xrow x0 b j'))) := by
  have h15 : val_main_v15 (F := Ideal) x0 x1 x2 x3 x4 (ix2 b s)
      = (Finset.univ : Finset (Fin 4096)).fold max cNegInf
          (fun j => val_main_v14 (F := Ideal) x0 x1 x2 x3 x4 (ix3 b s j)) := by
    unfold val_main_v15
    generalize val_main_v14 (F := Ideal) x0 x1 x2 x3 x4 = y
    exact reduce_max_row y _ _ _ b s
  rw [val_main_v17_apply, val_main_v16_apply, val_main_cst_1_apply, h15]
  simp only [score_eq, Ideal.maximumf_def, Ideal.ofBits_def]
  exact max_negInf _

/-- The unnormalised weight of position j in row (b, s). -/
theorem weight_eq (b : Fin 4) (s j : Fin 4096) :
    val_main_v21 (F := Ideal) x0 x1 x2 x3 x4 (ix3 b s j)
      = pexp (score (lin x1 x2 (xrow x0 b s)) (fun j' => lin x3 x4 (xrow x0 b j'))) j := by
  have h : idx_main_v18 (idx_main_v19 (ix3 b s j)) = ix2 b s := by idx2
  rw [val_main_v21_apply, val_main_v20_apply, val_main_v19_apply, val_main_v18_apply, h, rowmax_eq, score_eq]
  rfl

/-- The sum of row (b, s)'s weights, from the zero word. -/
theorem denom_eq (b : Fin 4) (s : Fin 4096) :
    val_main_v22 (F := Ideal) x0 x1 x2 x3 x4 (ix2 b s)
      = ∑ j : Fin 4096, pexp (score (lin x1 x2 (xrow x0 b s)) (fun j' => lin x3 x4 (xrow x0 b j'))) j := by
  have h : ∀ k : Fin 4096, idx_main_v22 (ix2 b s) k = ix3 b s k := fun k => by idx3
  rw [val_main_v22_apply, val_main_cst_2_apply]
  simp only [h, weight_eq, Ideal.ofBits_def, Ideal.ofBits_zero_f32, zero_add]

/-- The weight of position j divided by the row's sum. -/
theorem normalised_eq (b : Fin 4) (s j : Fin 4096) :
    val_main_v25 (F := Ideal) x0 x1 x2 x3 x4 (ix3 b s j)
      = Ideal.div (pexp (score (lin x1 x2 (xrow x0 b s)) (fun j' => lin x3 x4 (xrow x0 b j'))) j)
          (∑ j' : Fin 4096, pexp (score (lin x1 x2 (xrow x0 b s)) (fun j' => lin x3 x4 (xrow x0 b j'))) j') := by
  have h : idx_main_v23 (idx_main_v24 (ix3 b s j)) = ix2 b s := by idx2
  rw [val_main_v25_apply, val_main_v24_apply, val_main_v23_apply, h, denom_eq, weight_eq]
  rfl

/-- The weighted sum of the value rows: attention with each weight divided first. -/
theorem attn_eq (b : Fin 4) (s : Fin 4096) (e : Fin 256) :
    val_main_v26 (F := Ideal) x0 x1 x2 x3 x4 x5 x6 (ix3 b s e)
      = attnR (lin x1 x2 (xrow x0 b s)) (fun j => lin x3 x4 (xrow x0 b j)) (fun j => lin x5 x6 (xrow x0 b j)) e := by
  have hl : ∀ k : Fin 4096, lidx_main_v26 (ix3 b s e) k = ix3 b s k := fun k => by idx3
  have hr : ∀ k : Fin 4096, ridx_main_v26 (ix3 b s e) k = ix3 b k e := fun k => by idx3
  rw [val_main_v26_apply]
  simp only [hl, hr, normalised_eq, value_eq]
  rfl

/-! ## The first residual LayerNorm -/

/-- The residual x + attention at (b, s, d). -/
theorem resid1_eq (b : Fin 4) (s : Fin 4096) (d : Fin 256) :
    val_main_v27 (F := Ideal) x0 x1 x2 x3 x4 x5 x6 (ix3 b s d)
      = xrow x0 b s d + attnR (lin x1 x2 (xrow x0 b s)) (fun j => lin x3 x4 (xrow x0 b j))
          (fun j => lin x5 x6 (xrow x0 b j)) d := by
  rw [val_main_v27_apply, attn_eq]
  rfl

/-- The mean of the residual's row (b, s). -/
theorem mean1_eq (b : Fin 4) (s : Fin 4096) :
    val_main_v31 (F := Ideal) x0 x1 x2 x3 x4 x5 x6 (ix3 b s (0 : Fin 1))
      = mean (fun d => val_main_v27 (F := Ideal) x0 x1 x2 x3 x4 x5 x6 (ix3 b s d)) := by
  have h : ∀ k : Fin 256, idx_main_v28 (idx_main_v29 (ix3 b s (0 : Fin 1))) k = ix3 b s k := fun k => by idx3
  rw [val_main_v31_apply, val_main_v29_apply, val_main_v28_apply, val_main_v30_apply, val_main_cst_3_apply,
    val_main_cst_4_apply]
  simp only [h, Ideal.hostDivf_def, Ideal.ofBits_def, Ideal.ofBits_zero_f32, zero_add]
  rfl

/-- The deviation from the mean, as the variance's sum takes it. -/
theorem dev1_eq (b : Fin 4) (s : Fin 4096) (d : Fin 256) :
    val_main_v33 (F := Ideal) x0 x1 x2 x3 x4 x5 x6 (ix3 b s d)
      = val_main_v27 (F := Ideal) x0 x1 x2 x3 x4 x5 x6 (ix3 b s d)
          - mean (fun d' => val_main_v27 (F := Ideal) x0 x1 x2 x3 x4 x5 x6 (ix3 b s d')) := by
  have h : idx_main_v32 (ix3 b s d) = ix3 b s (0 : Fin 1) := by idx3
  rw [val_main_v33_apply, val_main_v32_apply, h, mean1_eq]
  rfl

/-- The variance of the residual's row (b, s): the mean of the squared deviations. -/
theorem var1_eq (b : Fin 4) (s : Fin 4096) :
    val_main_v38 (F := Ideal) x0 x1 x2 x3 x4 x5 x6 (ix3 b s (0 : Fin 1))
      = mean (fun d => (val_main_v27 (F := Ideal) x0 x1 x2 x3 x4 x5 x6 (ix3 b s d)
            - mean (fun d' => val_main_v27 (F := Ideal) x0 x1 x2 x3 x4 x5 x6 (ix3 b s d')))
          * (val_main_v27 (F := Ideal) x0 x1 x2 x3 x4 x5 x6 (ix3 b s d)
            - mean (fun d' => val_main_v27 (F := Ideal) x0 x1 x2 x3 x4 x5 x6 (ix3 b s d')))) := by
  have h : ∀ k : Fin 256, idx_main_v35 (idx_main_v36 (ix3 b s (0 : Fin 1))) k = ix3 b s k := fun k => by idx3
  rw [val_main_v38_apply, val_main_v36_apply, val_main_v35_apply, val_main_v37_apply, val_main_cst_5_apply,
    val_main_cst_6_apply]
  simp only [h, val_main_v34_apply, dev1_eq, Ideal.hostDivf_def, Ideal.mulf_def, Ideal.ofBits_def,
    Ideal.ofBits_zero_f32, zero_add]
  rfl

/-- The first LayerNorm over the residual's row. -/
theorem ln1_eq (b : Fin 4) (s : Fin 4096) (e : Fin 256) :
    val_main_v51 (F := Ideal) x0 x1 x2 x3 x4 x5 x6 x9 x10 (ix3 b s e)
      = lnorm x9 x10 (fun d => val_main_v27 (F := Ideal) x0 x1 x2 x3 x4 x5 x6 (ix3 b s d)) e := by
  have h39 : idx_main_v39 (ix3 b s e) = ix3 b s (0 : Fin 1) := by idx3
  have h44 : idx_main_v44 (ix3 b s e) = ix3 b s (0 : Fin 1) := by idx3
  have hg : idx_main_v46 (idx_main_v47 (ix3 b s e)) = ix1 e := by idx1
  have hβ : idx_main_v49 (idx_main_v50 (ix3 b s e)) = ix1 e := by idx1
  rw [val_main_v51_apply, val_main_v48_apply, val_main_v45_apply, val_main_v40_apply, val_main_v39_apply, h39,
    mean1_eq, val_main_v44_apply, h44, val_main_v43_apply, val_main_v42_apply, var1_eq, val_main_v41_apply,
    val_main_cst_7_apply, val_main_v47_apply, val_main_v46_apply, hg, val_main_v50_apply, val_main_v49_apply, hβ]
  generalize val_main_v27 (F := Ideal) x0 x1 x2 x3 x4 x5 x6 = y
  rfl

/-- The first LayerNorm's output is Spec.lean's hidden row. -/
theorem hid_eq (b : Fin 4) (s : Fin 4096) (e : Fin 256) :
    val_main_v51 (F := Ideal) x0 x1 x2 x3 x4 x5 x6 x9 x10 (ix3 b s e)
      = hid attnR x0 x1 x2 x3 x4 x5 x6 x9 x10 b s e := by
  rw [ln1_eq]
  simp only [resid1_eq]
  rfl

/-! ## The feed-forward map: the same linear layer twice, a ReLU between -/

theorem inner_eq (b : Fin 4) (s : Fin 4096) (d : Fin 256) :
    val_main_v55 (F := Ideal) x0 x1 x2 x3 x4 x5 x6 x7 x8 x9 x10 (ix3 b s d)
      = lin x7 x8 (hid attnR x0 x1 x2 x3 x4 x5 x6 x9 x10 b s) d := by
  have hl : ∀ k : Fin 256, lidx_main_v52 (ix3 b s d) k = ix3 b s k := fun k => by idx3
  have hr : ∀ k : Fin 256, ridx_main_v52 (ix3 b s d) k = ix2 d k := fun k => by idx2
  have hb : idx_main_v53 (idx_main_v54 (ix3 b s d)) = ix1 d := by idx1
  rw [val_main_v55_apply, val_main_v52_apply, val_main_v54_apply, val_main_v53_apply]
  simp only [hl, hr, hb, hid_eq, Ideal.addf_def]
  rfl

theorem relu_eq (b : Fin 4) (s : Fin 4096) (d : Fin 256) :
    val_main_v56 (F := Ideal) x0 x1 x2 x3 x4 x5 x6 x7 x8 x9 x10 (ix3 b s d)
      = max (lin x7 x8 (hid attnR x0 x1 x2 x3 x4 x5 x6 x9 x10 b s) d) (Ideal.ofBits .f32 0x00000000#32) := by
  rw [val_main_v56_apply, val_main_call0_v0_apply, val_main_call0_cst_apply, inner_eq]
  rfl

theorem ffn_eq (b : Fin 4) (s : Fin 4096) (e : Fin 256) :
    val_main_v60 (F := Ideal) x0 x1 x2 x3 x4 x5 x6 x7 x8 x9 x10 (ix3 b s e)
      = ffn x7 x8 (hid attnR x0 x1 x2 x3 x4 x5 x6 x9 x10 b s) e := by
  have hl : ∀ k : Fin 256, lidx_main_v57 (ix3 b s e) k = ix3 b s k := fun k => by idx3
  have hr : ∀ k : Fin 256, ridx_main_v57 (ix3 b s e) k = ix2 e k := fun k => by idx2
  have hb : idx_main_v58 (idx_main_v59 (ix3 b s e)) = ix1 e := by idx1
  rw [val_main_v60_apply, val_main_v57_apply, val_main_v59_apply, val_main_v58_apply]
  simp only [hl, hr, hb, relu_eq, Ideal.addf_def]
  rfl

/-! ## The second residual LayerNorm -/

/-- The residual x + feed-forward at (b, s, d). -/
theorem resid2_eq (b : Fin 4) (s : Fin 4096) (d : Fin 256) :
    val_main_v61 (F := Ideal) x0 x1 x2 x3 x4 x5 x6 x7 x8 x9 x10 (ix3 b s d)
      = xrow x0 b s d + ffn x7 x8 (hid attnR x0 x1 x2 x3 x4 x5 x6 x9 x10 b s) d := by
  rw [val_main_v61_apply, ffn_eq]
  rfl

theorem mean2_eq (b : Fin 4) (s : Fin 4096) :
    val_main_v65 (F := Ideal) x0 x1 x2 x3 x4 x5 x6 x7 x8 x9 x10 (ix3 b s (0 : Fin 1))
      = mean (fun d => val_main_v61 (F := Ideal) x0 x1 x2 x3 x4 x5 x6 x7 x8 x9 x10 (ix3 b s d)) := by
  have h : ∀ k : Fin 256, idx_main_v62 (idx_main_v63 (ix3 b s (0 : Fin 1))) k = ix3 b s k := fun k => by idx3
  rw [val_main_v65_apply, val_main_v63_apply, val_main_v62_apply, val_main_v64_apply, val_main_cst_8_apply,
    val_main_cst_9_apply]
  simp only [h, Ideal.hostDivf_def, Ideal.ofBits_def, Ideal.ofBits_zero_f32, zero_add]
  rfl

theorem dev2_eq (b : Fin 4) (s : Fin 4096) (d : Fin 256) :
    val_main_v67 (F := Ideal) x0 x1 x2 x3 x4 x5 x6 x7 x8 x9 x10 (ix3 b s d)
      = val_main_v61 (F := Ideal) x0 x1 x2 x3 x4 x5 x6 x7 x8 x9 x10 (ix3 b s d)
          - mean (fun d' => val_main_v61 (F := Ideal) x0 x1 x2 x3 x4 x5 x6 x7 x8 x9 x10 (ix3 b s d')) := by
  have h : idx_main_v66 (ix3 b s d) = ix3 b s (0 : Fin 1) := by idx3
  rw [val_main_v67_apply, val_main_v66_apply, h, mean2_eq]
  rfl

theorem var2_eq (b : Fin 4) (s : Fin 4096) :
    val_main_v72 (F := Ideal) x0 x1 x2 x3 x4 x5 x6 x7 x8 x9 x10 (ix3 b s (0 : Fin 1))
      = mean (fun d => (val_main_v61 (F := Ideal) x0 x1 x2 x3 x4 x5 x6 x7 x8 x9 x10 (ix3 b s d)
            - mean (fun d' => val_main_v61 (F := Ideal) x0 x1 x2 x3 x4 x5 x6 x7 x8 x9 x10 (ix3 b s d')))
          * (val_main_v61 (F := Ideal) x0 x1 x2 x3 x4 x5 x6 x7 x8 x9 x10 (ix3 b s d)
            - mean (fun d' => val_main_v61 (F := Ideal) x0 x1 x2 x3 x4 x5 x6 x7 x8 x9 x10 (ix3 b s d')))) := by
  have h : ∀ k : Fin 256, idx_main_v69 (idx_main_v70 (ix3 b s (0 : Fin 1))) k = ix3 b s k := fun k => by idx3
  rw [val_main_v72_apply, val_main_v70_apply, val_main_v69_apply, val_main_v71_apply, val_main_cst_10_apply,
    val_main_cst_11_apply]
  simp only [h, val_main_v68_apply, dev2_eq, Ideal.hostDivf_def, Ideal.mulf_def, Ideal.ofBits_def,
    Ideal.ofBits_zero_f32, zero_add]
  rfl

/-- The second LayerNorm over the second residual's row. -/
theorem ln2_eq (b : Fin 4) (s : Fin 4096) (e : Fin 256) :
    val_main_v85 (F := Ideal) x0 x1 x2 x3 x4 x5 x6 x7 x8 x9 x10 x11 x12 (ix3 b s e)
      = lnorm x11 x12 (fun d => val_main_v61 (F := Ideal) x0 x1 x2 x3 x4 x5 x6 x7 x8 x9 x10 (ix3 b s d)) e := by
  have h73 : idx_main_v73 (ix3 b s e) = ix3 b s (0 : Fin 1) := by idx3
  have h78 : idx_main_v78 (ix3 b s e) = ix3 b s (0 : Fin 1) := by idx3
  have hg : idx_main_v80 (idx_main_v81 (ix3 b s e)) = ix1 e := by idx1
  have hβ : idx_main_v83 (idx_main_v84 (ix3 b s e)) = ix1 e := by idx1
  rw [val_main_v85_apply, val_main_v82_apply, val_main_v79_apply, val_main_v74_apply, val_main_v73_apply, h73,
    mean2_eq, val_main_v78_apply, h78, val_main_v77_apply, val_main_v76_apply, var2_eq, val_main_v75_apply,
    val_main_cst_12_apply, val_main_v81_apply, val_main_v80_apply, hg, val_main_v84_apply, val_main_v83_apply, hβ]
  generalize val_main_v61 (F := Ideal) x0 x1 x2 x3 x4 x5 x6 x7 x8 x9 x10 = y
  rfl

/-! ## The whole result -/

theorem ref_val (x0 : S4x4096x256.Idx → EReal) (x1 : S256x256.Idx → EReal) (x2 : S256.Idx → EReal) (x3 : S256x256.Idx → EReal)
    (x4 : S256.Idx → EReal) (x5 : S256x256.Idx → EReal) (x6 : S256.Idx → EReal) (x7 : S256x256.Idx → EReal)
    (x8 x9 x10 x11 x12 : S256.Idx → EReal) :
    val_main_v85 (F := Ideal) x0 x1 x2 x3 x4 x5 x6 x7 x8 x9 x10 x11 x12
      = out attnR x0 x1 x2 x3 x4 x5 x6 x7 x8 x9 x10 x11 x12 := by
  funext i
  obtain ⟨b, s, e, rfl⟩ : ∃ (b : Fin 4) (s : Fin 4096) (e : Fin 256), i = ix3 b s e := ⟨i 0, i 1, i 2, eq_ix3 i⟩
  rw [out_ix3, ln2_eq]
  simp only [resid2_eq]
  rfl

end Cert.ReferenceIdeal.RefVal

end
-- ==== Proof.AttnLaw.lean ====
/-
  The one law that joins the two programs: with real weights and real values, dividing the weighted sum once by the sum of
  the weights is dividing each weight first.

  With real query, key and value rows every score is a real number, so the row maximum (a fold of max from minus infinity
  over 4096 reals) is a real number, every weight exp (score - max) is a positive real, and the sum of the weights is a
  positive real l. Division by l is then multiplication by the real 1/l, and the law is the distributive law in the reals:
  (sum_j p_j v_j) (1/l) = sum_j (p_j (1/l)) v_j.
-/
import proofs.«427772_j35862976921882_3_alg».proof.Proof.Spec
import Mathlib.Data.EReal.Operations
import Mathlib.Analysis.SpecialFunctions.Exp

noncomputable section

open scoped BigOperators

namespace Cert.Attn

open Idealize.ShloMosaic Idealize.ShloMosaic.ValueIdx

/-- "Every entry is a real number". -/
def IsReal {ι : Type*} (f : ι → EReal) : Prop := ∀ i, ∃ r : ℝ, f i = (r : EReal)

/-- The coercion of a finite sum of reals is the sum of the coercions. -/
private theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The fold of max from minus infinity over a nonempty finite family of reals is a real. -/
private theorem fold_max_real {ι : Type*} (s : Finset ι) (hs : s.Nonempty) (f : ι → ℝ) :
    ∃ m : ℝ, s.fold max (⊥ : EReal) (fun i => (f i : EReal)) = (m : EReal) := by
  classical
  induction s using Finset.induction_on with
  | empty => exact absurd hs (by simp)
  | insert a s ha ih =>
    rw [Finset.fold_insert ha]
    rcases s.eq_empty_or_nonempty with h | h
    · subst h
      exact ⟨f a, by simp⟩
    · obtain ⟨m, hm⟩ := ih h
      exact ⟨max (f a) m, by rw [hm, EReal.coe_strictMono.monotone.map_max]⟩

/-- The word 0xFF800000 is minus infinity. -/
private theorem cNegInf_eq : cNegInf = ⊥ := by simp [Ideal.ofBits, Ideal.ieee]

/-- The scale is a real number (1/16). -/
private theorem c16_real : ∃ c : ℝ, c16 = (c : EReal) :=
  ⟨1 / 16, by simp [Ideal.ofBits, Ideal.ieee, -EReal.coe_mul]; norm_num⟩

theorem lin_real (W : SW.Idx → EReal) (β : SV.Idx → EReal) (u : Fin 256 → EReal) (hW : IsReal W) (hβ : IsReal β) (hu : IsReal u) :
    IsReal (lin W β u) := by
  unfold IsReal at *
  intro e
  choose w hw using hW
  choose b hb using hβ
  choose u' hu' using hu
  refine ⟨(∑ d : Fin 256, u' d * w (ix2 e d)) + b (ix1 e), ?_⟩
  unfold lin
  rw [EReal.coe_add, coe_sum, hb]
  congr 1
  refine Finset.sum_congr rfl fun d _ => ?_
  rw [hu', hw, EReal.coe_mul]

/-- With real query and key rows every score is real. -/
private theorem score_real (q : Fin 256 → EReal) (kk : Fin 4096 → Fin 256 → EReal) (hq : IsReal q)
    (hk : ∀ j, IsReal (kk j)) : IsReal (score q kk) := by
  unfold IsReal at *
  intro j
  obtain ⟨c, hc⟩ := c16_real
  choose q' hq' using hq
  choose k' hk' using hk j
  refine ⟨(∑ d : Fin 256, q' d * k' d) * c, ?_⟩
  unfold score
  rw [hc, EReal.coe_mul, coe_sum]
  congr 1
  refine Finset.sum_congr rfl fun d _ => ?_
  rw [hq', hk', EReal.coe_mul]

/-- The unnormalised weights of a real row are positive reals. -/
private theorem pexp_real (f : Fin 4096 → EReal) (hf : IsReal f) :
    ∃ p : Fin 4096 → ℝ, (∀ j, 0 < p j) ∧ ∀ j, pexp f j = (p j : EReal) := by
  unfold IsReal at hf
  choose s hs using hf
  have hf' : f = fun j => (s j : EReal) := funext hs
  obtain ⟨m, hm⟩ : ∃ m : ℝ, rowmax f = (m : EReal) := by
    unfold rowmax
    rw [cNegInf_eq, hf']
    exact fold_max_real _ Finset.univ_nonempty s
  refine ⟨fun j => Real.exp (s j - m), fun j => Real.exp_pos _, fun j => ?_⟩
  unfold pexp
  rw [hm, hs j, ← EReal.coe_sub, Ideal.exp_coe]

/-- The law on real data: the weighted sum divided once by a nonzero real l is the sum with each weight divided by l. -/
private theorem div_sum_law {ι : Type*} (s : Finset ι) (p v : ι → ℝ) (l : ℝ) (hl : l ≠ 0) :
    Ideal.div (∑ j ∈ s, (p j : EReal) * (v j : EReal)) (l : EReal)
      = ∑ j ∈ s, Ideal.div (p j : EReal) (l : EReal) * (v j : EReal) := by
  simp only [Ideal.div_coe hl, ← EReal.coe_mul]
  rw [← coe_sum, ← coe_sum, ← EReal.coe_mul, Finset.sum_mul]
  congr 1
  exact Finset.sum_congr rfl fun j _ => by ring

theorem attnK_eq_attnR (q : Fin 256 → EReal) (kk vv : Fin 4096 → Fin 256 → EReal) (hq : IsReal q)
    (hk : ∀ j, IsReal (kk j)) (hv : ∀ j, IsReal (vv j)) : attnK q kk vv = attnR q kk vv := by
  funext e
  obtain ⟨p, hp0, hp⟩ := pexp_real (score q kk) (score_real q kk hq hk)
  have hv' : ∀ j, ∃ r : ℝ, vv j e = (r : EReal) := fun j => hv j e
  choose v hv'' using hv'
  have hL : (∑ j : Fin 4096, pexp (score q kk) j) = ((∑ j : Fin 4096, p j : ℝ) : EReal) := by
    rw [coe_sum]
    exact Finset.sum_congr rfl fun j _ => hp j
  have hl : (∑ j : Fin 4096, p j) ≠ 0 := (Finset.sum_pos (fun j _ => hp0 j) Finset.univ_nonempty).ne'
  unfold attnK attnR
  rw [hL]
  simp only [hp, hv'']
  exact div_sum_law Finset.univ p v _ hl

theorem out_attnK_eq_attnR (X : SX.Idx → EReal) (Wq : SW.Idx → EReal) (bq : SV.Idx → EReal) (Wk : SW.Idx → EReal) (bk : SV.Idx → EReal)
    (Wv : SW.Idx → EReal) (bv : SV.Idx → EReal) (Wl : SW.Idx → EReal) (bl g1 be1 g2 be2 : SV.Idx → EReal)
    (hX : IsReal X) (hWq : IsReal Wq) (hbq : IsReal bq) (hWk : IsReal Wk) (hbk : IsReal bk) (hWv : IsReal Wv) (hbv : IsReal bv) :
    out attnK X Wq bq Wk bk Wv bv Wl bl g1 be1 g2 be2 = out attnR X Wq bq Wk bk Wv bv Wl bl g1 be1 g2 be2 := by
  have hx : ∀ b s, IsReal (xrow X b s) := fun b s d => hX (ix3 b s d)
  have h : ∀ b s, attnK (lin Wq bq (xrow X b s)) (fun j => lin Wk bk (xrow X b j)) (fun j => lin Wv bv (xrow X b j))
      = attnR (lin Wq bq (xrow X b s)) (fun j => lin Wk bk (xrow X b j)) (fun j => lin Wv bv (xrow X b j)) :=
    fun b s => attnK_eq_attnR _ _ _ (lin_real Wq bq _ hWq hbq (hx b s)) (fun j => lin_real Wk bk _ hWk hbk (hx b j))
      (fun j => lin_real Wv bv _ hWv hbv (hx b j))
  funext i
  unfold out rowOut hid
  rw [h (i 0) (i 1)]

end Cert.Attn

end
-- ==== Proof.PreReal.lean ====
/-
  From the precondition "every input is finite" to "every entry of the seven arrays the attention reads is a real number".

  The precondition is a conjunction, one conjunct per argument: "|a i| < +infinity at every index i", written as a
  reduction by "and" of the elementwise comparison. A conjunction that is 1 has every conjunct 1; a reduction by "and"
  into one result that is 1 had a 1 at every index; and an extended real x with max x (-x) < +infinity is neither
  infinity, hence a real number.
-/
import proofs.«427772_j35862976921882_3_alg».proof.Defs
import proofs.«427772_j35862976921882_3_alg».proof.Proof.Gen.Pre_finite_inputs
import Idealize.ShloMosaic.Lib.ReduceAll
import Idealize.ShloMosaic.Lib.ValueIdx

noncomputable section

namespace Cert.PreReal

open Idealize.ShloMosaic Idealize.ShloMosaic.TcCoe Idealize.SL.Sem Cert.KernelIdeal

/-- The result shape of a reduction over every axis has one index. -/
instance : Subsingleton Cert.Pre_finite_inputs.S_.Idx := ⟨fun a b => funext fun d => d.elim0⟩

/-- An extended real whose absolute value is below plus infinity (the word 0x7F800000) is a real number. -/
theorem real_of_abs_lt (x : EReal)
    (h : Ideal.cmp .olt (max x (-x)) (Ideal.ofBits .f32 0x7F800000#32) = 1#1) : ∃ r : ℝ, x = (r : EReal) := by
  have hT : Ideal.ofBits .f32 0x7F800000#32 = ⊤ := by simp [Ideal.ofBits, Ideal.ieee]
  rw [hT] at h
  induction x using EReal.rec with
  | bot => simp [Ideal.cmp] at h
  | coe r => exact ⟨r, rfl⟩
  | top => simp [Ideal.cmp] at h

/-- One conjunct of the precondition, read back: if "all (|a| < +infinity)" is 1 then every entry of a is real. -/
theorem all_real {S : Shape} {axes : List (Fin S.rank)}
    (bc : Cert.Pre_finite_inputs.S_.BroadcastsInDim S (![] : Fin 0 → Fin S.rank))
    (rd : S.ReducesTo axes Cert.Pre_finite_inputs.S_) (hS : 0 < Cert.Pre_finite_inputs.S_.numel) (a : FVec Ideal S .f32)
    (h : Host.reduce IntOp.andi
        (cmpf .olt (Host.absf a) (broadcastInDim S ![] bc (constant (F := Ideal) Cert.Pre_finite_inputs.S_ .f32 0x7F800000#32)))
        (constantI Cert.Pre_finite_inputs.S_ 1 1#1) rd hS ValueIdx.ix0 = 1#1) :
    ∀ i, ∃ r : ℝ, a i = (r : EReal) := fun i =>
  real_of_abs_lt (a i) (Host.reduce_andi_all _ _ rd hS ValueIdx.ix0 h i)

/-- Under the precondition the arrays x, Wq, bq, Wk, bk, Wv, bv (arguments 0 to 6) hold real numbers. -/
theorem real_of_pre [Cert.Pre_finite_inputs.Facts] (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal))
    ∧ (∀ i, ∃ r : ℝ, m ((c.tc : Thread nD τ).loc main_arg5) i = (r : EReal))
    ∧ (∀ i, ∃ r : ℝ, m ((c.tc : Thread nD τ).loc main_arg6) i = (r : EReal)) := by
  have h0 := congrFun (h c) ValueIdx.ix0
  dsimp only [Cert.Pre_finite_inputs.fn, Cert.Pre_finite_inputs.fn_part1, Cert.Pre_finite_inputs.fn_part2,
    Cert.Pre_finite_inputs.fn_part3, andi] at h0
  simp only [IntOp.andi_eq_one] at h0
  obtain ⟨⟨⟨⟨⟨⟨⟨⟨⟨⟨⟨⟨e0, e1⟩, e2⟩, e3⟩, e4⟩, e5⟩, e6⟩, -⟩, -⟩, -⟩, -⟩, -⟩, -⟩ := h0
  exact ⟨all_real _ _ _ _ e0, all_real _ _ _ _ e1, all_real _ _ _ _ e2, all_real _ _ _ _ e3, all_real _ _ _ _ e4,
    all_real _ _ _ _ e5, all_real _ _ _ _ e6⟩

end Cert.PreReal

end
-- ==== Proof.lean ====
/-
  Attention, feed-forward and two LayerNorms in two kernel calls against the same computation in plain array operations.

  Both programs compute, for every row (b, s) of x : [4, 4096, 256], the function of Proof/Spec.lean: the query, key and
  value projections x W^T + bias; the softmax over the 4096 positions of batch b of the query-key products scaled by
  1/16; the weighted sum of the values; LayerNorm(x + attention); the same linear map twice with a ReLU between;
  LayerNorm(x + that). The kernel's first call writes the three projections, row block by row block; its second call
  does the rest for 256 query rows at a time against the whole key and value slabs of the batch. On the extended reals
  the formats bf16 and f32 are one, a matrix product is the sum over the contracted coordinate on both sides, the
  kernel's product with the word of 0.0625 is the reference's division by 16, and the one real difference is where the
  softmax is normalised: the kernel divides the weighted sum once by the sum of the weights, the reference divides each
  weight first. With finite inputs every projection is a real number, so the weights are positive reals and the two are
  equal by the distributive law (Proof/AttnLaw.lean); this is where the precondition is used (Proof/PreReal.lean).

  The kernel's result array is read off the run of its two calls (Proof/KernelRun.lean, Proof/KV0.lean, Proof/KV1.lean,
  Proof/KernelVal.lean), the reference's off its run operation by operation (Proof/RefRun.lean, Proof/RefRead.lean,
  Proof/RefVal.lean). The one rewrite of the idealization (a value narrowed to bf16 and widened back is the value) is
  the rule's own statement.
-/
import proofs.«427772_j35862976921882_3_alg».proof.Defs
import proofs.«427772_j35862976921882_3_alg».proof.Proof.Gen.Kernel
import proofs.«427772_j35862976921882_3_alg».proof.Proof.Gen.Kernel.Frame
import proofs.«427772_j35862976921882_3_alg».proof.Proof.Gen.KernelIdeal
import proofs.«427772_j35862976921882_3_alg».proof.Proof.Gen.KernelIdeal.Frame
import proofs.«427772_j35862976921882_3_alg».proof.Proof.Gen.ReferenceIdeal
import proofs.«427772_j35862976921882_3_alg».proof.Proof.Gen.Pre_finite_inputs
import proofs.«427772_j35862976921882_3_alg».proof.Proof.KernelRun
import proofs.«427772_j35862976921882_3_alg».proof.Proof.KernelVal
import proofs.«427772_j35862976921882_3_alg».proof.Proof.RefRun
import proofs.«427772_j35862976921882_3_alg».proof.Proof.RefRead
import proofs.«427772_j35862976921882_3_alg».proof.Proof.RefVal
import proofs.«427772_j35862976921882_3_alg».proof.Proof.AttnLaw
import proofs.«427772_j35862976921882_3_alg».proof.Proof.PreReal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel call: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one entry of the idealization's ledger: the softmax weights narrowed to bf16 and widened back are the weights. -/
theorem preserves : Cert.preserves_Kernel_KernelIdeal :=
  IdealRules.truncf_extf.statement Cert.KernelIdeal.S256x4096 .f32 .bf16

/-- Both runs end with the result at the row function of the arguments, the kernel's with the softmax divided once, the
    reference's with each weight divided; the arguments are real numbers under the precondition, so the two agree. -/
theorem algebraic : Cert.algebraic_KernelIdeal_ReferenceIdeal := by
  intro m ρ m' ρ' hpre hagree
  refine ⟨fun c => Cert.Attn.out Cert.Attn.attnK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KernelVal.kernel_val m ρ c), (h c).2⟩)
      (Cert.KernelIdeal.RunVals.run_vals (F := Ideal) m ρ)
  · refine (θ_run Cert.ReferenceIdeal.defs _ _).mono (fun _ h c => ⟨(h c).1.trans ?_, (h c).2⟩)
      (Cert.ReferenceIdeal.ValueP.run (F := Ideal) m' ρ')
    obtain ⟨r0, r1, r2, r3, r4, r5, r6⟩ := Cert.PreReal.real_of_pre m hpre c
    obtain ⟨a0, a1, a2, a3, a4, a5, a6, a7, a8, a9, a10, a11, a12⟩ := hagree c
    rw [Cert.ReferenceIdeal.ReadP.val_main_v85_eq, Cert.ReferenceIdeal.RefVal.ref_val, a0, a1, a2, a3, a4, a5, a6, a7, a8, a9, a10,
      a11, a12]
    exact (Cert.Attn.out_attnK_eq_attnR _ _ _ _ _ _ _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
